-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S1x64 : Shape := ⟨2, ![1, 64]⟩
abbrev S5000x128 : Shape := ⟨2, ![5000, 128]⟩
abbrev S5000x1 : Shape := ⟨2, ![5000, 1]⟩
abbrev S800000x128 : Shape := ⟨2, ![800000, 128]⟩
abbrev S50000x64 : Shape := ⟨2, ![50000, 64]⟩
abbrev S5000x64 : Shape := ⟨2, ![5000, 64]⟩
abbrev S800000x64 : Shape := ⟨2, ![800000, 64]⟩
abbrev S5000 : Shape := ⟨1, ![5000]⟩

abbrev nBuf : Space → Nat
  | .hbm => 65
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S1x128, .f32⟩
  | .hbm, ⟨34, _⟩ => ⟨S1x64, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S50000x128, .f32⟩
  | .hbm, ⟨50, _⟩ => ⟨S50000x64, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S50000x64, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x64, .f32⟩
  | .hbm, ⟨91, _⟩ => ⟨S_, .f32⟩
  | .hbm, ⟨92, _⟩ => ⟨S50000x64, .f32⟩
  | .hbm, ⟨93, _⟩ => ⟨S800000x1, .i32⟩
  | .hbm, ⟨94, _⟩ => ⟨S50000x64, .f32⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S50000x1, .f32⟩
  | .hbm, ⟨99, _⟩ => ⟨S50000x64, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | .hbm, ⟨104, _⟩ => ⟨S_, .f32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x64, .f32⟩
  | .hbm, ⟨111, _⟩ => ⟨S50000x64, .f32⟩
  | .hbm, ⟨112, _⟩ => ⟨S50000x64, .f32⟩
  | .hbm, ⟨113, _⟩ => ⟨S_, .f32⟩
  | .hbm, ⟨114, _⟩ => ⟨S50000, .f32⟩
  | .hbm, ⟨115, _⟩ => ⟨S50000x1, .f32⟩
  | .hbm, ⟨116, _⟩ => ⟨S50000x1, .f32⟩
  | .hbm, ⟨117, _⟩ => ⟨S50000x64, .f32⟩
  | .hbm, ⟨118, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_cst_13 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_14 : Ref sig .tc := ⟨.hbm, 82, rfl⟩
abbrev main_v49 : Ref sig .tc := ⟨.hbm, 83, rfl⟩
abbrev main_v50 : Ref sig .tc := ⟨.hbm, 84, rfl⟩
abbrev main_c_15 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_16 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_17 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call5_cst : Ref sig .tc := ⟨.hbm, 104, rfl⟩
abbrev main_call5_v0 : Ref sig .tc := ⟨.hbm, 105, rfl⟩
abbrev main_call5_cst_0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_v5 : Ref sig .tc := ⟨.hbm, 111, rfl⟩
abbrev main_call5_v6 : Ref sig .tc := ⟨.hbm, 112, rfl⟩
abbrev main_call5_cst_1 : Ref sig .tc := ⟨.hbm, 113, rfl⟩
abbrev main_call5_v7 : Ref sig .tc := ⟨.hbm, 114, rfl⟩
abbrev main_call5_v8 : Ref sig .tc := ⟨.hbm, 115, rfl⟩
abbrev main_call5_v9 : Ref sig .tc := ⟨.hbm, 116, rfl⟩
abbrev main_call5_v10 : Ref sig .tc := ⟨.hbm, 117, rfl⟩
abbrev main_v67 : Ref sig .tc := ⟨.hbm, 118, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibKeepdims.lean ====
/-
  A vector of n entries given a unit axis. Cast to one column [n, 1] it is the host's broadcast of the vector
  along axis 0; cast to one row [1, n] it is the host's broadcast of it along axis 1: entry (r, 0), and entry
  (0, q), of either is the vector's entry r, or q.
-/
import Idealize.ShloMosaic.Lib.Pipeline.Value
import Idealize.ShloMosaic.Lib.ValueIdx

namespace Cert.Keepdims

open Idealize.ShloMosaic Idealize.ShloMosaic.ValueIdx

variable {α : Type}

/-- One column: the cast [n] → [n, 1] is the broadcast along axis 0. -/
theorem cast_col_eq_broadcast {n : Nat} (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ v h = broadcastInDim ⟨2, ![n, 1]⟩ ![0] hb v := by
  funext i
  have h1 : (i 1).val < 1 := idx2_lt1 i
  have h0 : (i 0).val < n := idx2_lt0 i
  have e1 := shapeCast_apply v h i (ix1 (i 0 : Fin n)) (by
    rw [Shape.rowMajor_val_two, Shape.rowMajor_val_one]; show (i 0).val = (i 0).val * 1 + (i 1).val; omega)
  have e2 := broadcastInDim_apply ![0] hb v i (ix1 (i 0 : Fin n)) (by
    intro a
    match a with
    | ⟨0, _⟩ =>
      show (i 0).val = if n = 1 then 0 else (i 0).val
      split
      · omega
      · rfl)
  exact e1.trans e2.symm

/-- One row: the cast [n] → [1, n] is the broadcast along axis 1. -/
theorem cast_row_eq_broadcast {n : Nat} (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ v h = broadcastInDim ⟨2, ![1, n]⟩ ![1] hb v := by
  funext i
  have h0 : (i 0).val < 1 := idx2_lt0 i
  have h1 : (i 1).val < n := idx2_lt1 i
  have e1 := shapeCast_apply v h i (ix1 (i 1 : Fin n)) (by
    rw [Shape.rowMajor_val_two, Shape.rowMajor_val_one]; show (i 1).val = (i 0).val * n + (i 1).val; simp only [show (i 0).val = 0 by omega, Nat.zero_mul, Nat.zero_add])
  have e2 := broadcastInDim_apply ![1] hb v i (ix1 (i 1 : Fin n)) (by
    intro a
    match a with
    | ⟨0, _⟩ =>
      show (i 1).val = if n = 1 then 0 else (i 1).val
      split
      · omega
      · rfl)
  exact e1.trans e2.symm

/-- A one-column array broadcast along the rows of [a, b], read at (p, q): the column's entry (p, 0). -/
theorem broadcastTo_col_apply {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) :=
  broadcastTo_apply v h (ix2 p q) (ix2 p (0 : Fin 1)) (fun x => match x with
    | ⟨0, _⟩ => by
      show p.val = if a = 1 then 0 else p.val
      split
      · have := p.isLt; omega
      · rfl
    | ⟨1, _⟩ => by show (0 : Nat) = if (1 : Nat) = 1 then 0 else q.val; rw [if_pos rfl])

/-- A vector cast to one column, read at (p, 0): the vector's entry p. -/
theorem cast_col_apply {n : Nat} (v : (⟨1, ![n]⟩ : Shape).Idx → α)
    (h : (⟨1, ![n]⟩ : Shape).ShapeCasts ⟨2, ![n, 1]⟩) (p : Fin n) :
    shapeCast ⟨2, ![n, 1]⟩ v h (ix2 p (0 : Fin 1)) = v (ix1 p) :=
  shapeCast_apply v h (ix2 p (0 : Fin 1)) (ix1 p) (by
    rw [Shape.rowMajor_val_two, Shape.rowMajor_val_one]; show p.val = p.val * 1 + 0; omega)

end Cert.Keepdims
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.LibRowReduce.lean ====
/-
  Reductions over the columns of a two-dimensional array, read at a row p, at the extended reals: a kernel's
  maximum and sum over axis 1, and the host's maximum over axis 1, are the fold of max from the initial value,
  and the sum, over the row's entries (p, k).
-/
import Idealize.ShloMosaic.PureOps.Ideal.Laws
import Idealize.ShloMosaic.PureOps.Reduce
import Idealize.ShloMosaic.Lib.ValueIdx

namespace Cert.RowReduce

open Idealize.ShloMosaic Idealize.ShloMosaic.ValueIdx

variable {M N : Nat} {φ : FTy}

/-- Row p with the column coordinate k put back is the index (p, k). -/
theorem lift_row (h : (⟨2, ![M, N]⟩ : Shape).Reduces [1] ⟨1, ![M]⟩) (p : Fin M) (k : Fin N) :
    h.lift (ix1 p) k = ix2 p k :=
  funext fun a => Fin.ext (by match a with | ⟨0, _⟩ => rfl | ⟨1, _⟩ => rfl)

/-- A kernel's maximum over the columns, at row p: the fold of max from the accumulator's value over the row. -/
theorem multiReduction_max_row (Y : FVec Ideal (⟨2, ![M, N]⟩ : Shape) φ) (acc : BitVec φ.bits)
    (h : (⟨2, ![M, N]⟩ : Shape).Reduces [1] ⟨1, ![M]⟩) (hφ : FKind.Formats φ)
    (hacc : acc = FKind.maximumf.neutral φ hφ) (p : Fin M) :
    multiReduction .maximumf [1] ⟨1, ![M]⟩ Y acc h hφ hacc (ix1 p)
      = (Finset.univ : Finset (Fin N)).fold max (FloatOps.ofBits φ acc) (fun k => Y (ix2 p k)) := by
  rw [Ideal.multiReduction_maximumf_single]
  exact congrArg (fun f => (Finset.univ : Finset (Fin N)).fold max (FloatOps.ofBits φ acc) f)
    (funext fun k => congrArg Y (lift_row h p k))

/-- A kernel's sum over the columns, at row p: the sum of the row. -/
theorem multiReduction_add_row (Y : FVec Ideal (⟨2, ![M, N]⟩ : Shape) φ) (acc : BitVec φ.bits)
    (h : (⟨2, ![M, N]⟩ : Shape).Reduces [1] ⟨1, ![M]⟩) (hφ : FKind.Formats φ)
    (hacc : acc = FKind.add.neutral φ hφ) (p : Fin M) :
    multiReduction .add [1] ⟨1, ![M]⟩ Y acc h hφ hacc (ix1 p) = ∑ k : Fin N, Y (ix2 p k) := by
  rw [Ideal.multiReduction_add_single]
  exact Finset.sum_congr rfl fun k _ => congrArg Y (lift_row h p k)

/-- The host's maximum over the columns, at row p: the fold of max from the initial value over the row. -/
theorem hostReduce_max_row {u : Shape} (Y : (⟨2, ![M, N]⟩ : Shape).Idx → Ideal φ) (init : u.Idx → Ideal φ)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce FloatOps.maximumf Y init h' hu (ix1 p)
      = (Finset.univ : Finset (Fin N)).fold max (init (Shape.Idx.first hu)) (fun k => Y (ix2 p k)) := by
  rw [Host.reduce_eq_fold_single FloatOps.maximumf Y init h' h hu]
  exact congrArg (fun f => (Finset.univ : Finset (Fin N)).fold max (init (Shape.Idx.first hu)) f)
    (funext fun k => congrArg Y (lift_row h p k))

/-- The maximum of b with a fold of max that starts from b is the fold. -/
theorem max_fold_max_self {ι : Type} (s : Finset ι) (b : EReal) (f : ι → EReal) :
    max b (s.fold max b f) = s.fold max b f :=
  max_eq_right ((Finset.le_fold_max b).mpr (Or.inl le_rfl))

/-- Entry q of the log-softmax of a row y of extended reals, the row maximum taken as a fold of max from b:
    (y q - m) - log (Σ k, exp (y k - m)) with m the maximum. -/
noncomputable def logSoftmaxRow {n : Nat} (b : EReal) (y : Fin n → EReal) (q : Fin n) : EReal :=
  (y q - (Finset.univ : Finset (Fin n)).fold max b y)
    - Ideal.log (∑ k : Fin n, Ideal.exp (y k - (Finset.univ : Finset (Fin n)).fold max b y))

end Cert.RowReduce
-- ==== Proof.Payloads.lean ====
/-
  What each of the four kernel bodies stores, read at an index (p, q) of its block of 5000 rows, at the extended
  reals (a change of float format is the identity there):
   * the scaling call: x (p, q) * d (p, 0);
   * the first layer's dense part: max ((Σ k, a (p, k) * w (k, q)) * d (p, 0) + b (0, q)) 0;
   * the second layer's projection: Σ k, (x (p, k) * d (p, 0)) * w (k, q);
   * the last call: the log-softmax of row p of y = a * d + b, the row maximum a fold of max from the
     accumulator's value, entry q.
-/
import proofs.«168742_j9234179686680_1_alg».proof.Proof.Gen.KernelIdeal.Skeleton
import proofs.«168742_j9234179686680_1_alg».proof.Proof.LibPlainDot
import proofs.«168742_j9234179686680_1_alg».proof.Proof.LibKeepdims
import proofs.«168742_j9234179686680_1_alg».proof.Proof.LibRowReduce
import Idealize.ShloMosaic.Lib.Pipeline.Value
import Idealize.ShloMosaic.Lib.ValueIdx
import Idealize.ShloMosaic.Lib.ValueLayout

noncomputable section

namespace Cert.KernelIdeal.Payloads

open Cert.KernelIdeal Cert.KernelIdeal.Gen Idealize.ShloMosaic Idealize.ShloMosaic.ValueIdx

/-- The scaling call's stored block. -/
theorem scale_eq (X : FVec Ideal S5000x128 .f32) (D : FVec Ideal S5000x1 .f32) :
    k0_pay1 (F := Ideal) X D = fun j => X j * D (ix2 (j 0) (0 : Fin 1)) := by
  funext j
  obtain ⟨p, q, rfl⟩ : ∃ (p : Fin 5000) (q : Fin 128), j = ix2 p q := ⟨j 0, j 1, eq_ix2 j⟩
  unfold k0_pay1
  show X (ix2 p q) * broadcastTo S5000x128 (shapeCast S5000x1 D shapeCasts_S5000x1_S5000x1) broadcasts_S5000x1_S5000x128 (ix2 p q) = _
  rw [Cert.Keepdims.broadcastTo_col_apply, shapeCast_self]

/-- The first layer's dense part: product with the weights, the row's factor, the bias row, the rectifier. -/
theorem conv_eq (X : FVec Ideal S5000x128 .f32) (W : FVec Ideal S128x128 .f32) (D : FVec Ideal S5000x1 .f32)
    (B : FVec Ideal S1x128 .f32) :
    k1_pay1 (F := Ideal) X W D B = fun j => max ((∑ k : Fin 128, X (ix2 (j 0) k) * W (ix2 k (j 1))) * D (ix2 (j 0) (0 : Fin 1))
      + B (ix2 (0 : Fin 1) (j 1))) (Ideal.ofBits .f32 0x00000000#32) := by
  funext j
  obtain ⟨p, q, rfl⟩ : ∃ (p : Fin 5000) (q : Fin 128), j = ix2 p q := ⟨j 0, j 1, eq_ix2 j⟩
  unfold k1_pay1
  show max (FloatOps.matmul (DotDims.plain 5000 128 128) none
        (truncf .bf16 (shapeCast S5000x128 X shapeCasts_S5000x128_S5000x128) bitsLt_bf16_f32)
        (truncf .bf16 W bitsLt_bf16_f32) (constant S5000x128 .f32 0x00000000#32) (ix2 p q)
      * broadcastTo S5000x128 (shapeCast S5000x1 D shapeCasts_S5000x1_S5000x1) broadcasts_S5000x1_S5000x128 (ix2 p q)
      + broadcastTo S5000x128 (shapeCast S1x128 B shapeCasts_S1x128_S1x128) broadcasts_S1x128_S5000x128 (ix2 p q))
      (Ideal.ofBits .f32 0x00000000#32) = _
  rw [Cert.PlainDot.matmul_zero_apply, Cert.Keepdims.broadcastTo_col_apply, broadcastTo_1b_ab_apply,
    shapeCast_self, shapeCast_self, shapeCast_self]
  rfl

/-- The second layer's projection: the rows scaled, then the product with the weights. -/
theorem project_eq (X : FVec Ideal S5000x128 .f32) (D : FVec Ideal S5000x1 .f32) (W : FVec Ideal S128x64 .f32) :
    k2_pay1 (F := Ideal) X D W = fun j => ∑ k : Fin 128, (X (ix2 (j 0) k) * D (ix2 (j 0) (0 : Fin 1))) * W (ix2 k (j 1)) := by
  funext j
  obtain ⟨p, q, rfl⟩ : ∃ (p : Fin 5000) (q : Fin 64), j = ix2 p q := ⟨j 0, j 1, eq_ix2 j⟩
  unfold k2_pay1
  show FloatOps.matmul (DotDims.plain 5000 128 64) none
        (truncf .bf16 (mulf (shapeCast S5000x128 X shapeCasts_S5000x128_S5000x128)
          (broadcastTo S5000x128 (shapeCast S5000x1 D shapeCasts_S5000x1_S5000x1) broadcasts_S5000x1_S5000x128)) bitsLt_bf16_f32)
        (truncf .bf16 W bitsLt_bf16_f32) (constant S5000x64 .f32 0x00000000#32) (ix2 p q) = _
  rw [Cert.PlainDot.matmul_zero_apply]
  refine Finset.sum_congr rfl fun k _ => ?_
  show (shapeCast S5000x128 X shapeCasts_S5000x128_S5000x128 (ix2 p k)
      * broadcastTo S5000x128 (shapeCast S5000x1 D shapeCasts_S5000x1_S5000x1) broadcasts_S5000x1_S5000x128 (ix2 p k))
      * W (ix2 k q) = _
  rw [Cert.Keepdims.broadcastTo_col_apply, shapeCast_self, shapeCast_self]

/-- The last call: scale, bias, then the log-softmax of each row. -/
theorem logsoftmax_eq (X : FVec Ideal S5000x64 .f32) (D : FVec Ideal S5000x1 .f32) (B : FVec Ideal S1x64 .f32) :
    k3_pay1 (F := Ideal) X D B = fun j => Cert.RowReduce.logSoftmaxRow (Ideal.ofBits .f32 0xFF800000#32)
      (fun k => X (ix2 (j 0) k) * D (ix2 (j 0) (0 : Fin 1)) + B (ix2 (0 : Fin 1) k)) (j 1) := by
  funext j
  obtain ⟨p, q, rfl⟩ : ∃ (p : Fin 5000) (q : Fin 64), j = ix2 p q := ⟨j 0, j 1, eq_ix2 j⟩
  -- the scaled and shifted block, and its entries
  have hy : ∀ k : Fin 64,
      addf (mulf (shapeCast S5000x64 X shapeCasts_S5000x64_S5000x64)
          (broadcastTo S5000x64 (shapeCast S5000x1 D shapeCasts_S5000x1_S5000x1) broadcasts_S5000x1_S5000x64))
        (broadcastTo S5000x64 (shapeCast S1x64 B shapeCasts_S1x64_S1x64) broadcasts_S1x64_S5000x64) (ix2 p k)
      = X (ix2 p k) * D (ix2 p (0 : Fin 1)) + B (ix2 (0 : Fin 1) k) := by
    intro k
    show shapeCast S5000x64 X shapeCasts_S5000x64_S5000x64 (ix2 p k)
        * broadcastTo S5000x64 (shapeCast S5000x1 D shapeCasts_S5000x1_S5000x1) broadcasts_S5000x1_S5000x64 (ix2 p k)
        + broadcastTo S5000x64 (shapeCast S1x64 B shapeCasts_S1x64_S1x64) broadcasts_S1x64_S5000x64 (ix2 p k) = _
    rw [Cert.Keepdims.broadcastTo_col_apply, broadcastTo_1b_ab_apply, shapeCast_self, shapeCast_self, shapeCast_self]
  unfold k3_pay1
  generalize hY : addf (mulf (shapeCast S5000x64 X shapeCasts_S5000x64_S5000x64)
          (broadcastTo S5000x64 (shapeCast S5000x1 D shapeCasts_S5000x1_S5000x1) broadcasts_S5000x1_S5000x64))
        (broadcastTo S5000x64 (shapeCast S1x64 B shapeCasts_S1x64_S1x64) broadcasts_S1x64_S5000x64) = Y at hy ⊢
  -- the row maximum, laid back along the row
  have hmx : ∀ k : Fin 64,
      broadcastTo S5000x64 (shapeCast S5000x1 (multiReduction .maximumf [1] S5000 Y 0xFF800000#32 reduces_S5000x64_S5000 (.inl rfl) rfl)
        shapeCasts_S5000_S5000x1) broadcasts_S5000x1_S5000x64 (ix2 p k)
      = (Finset.univ : Finset (Fin 64)).fold max (Ideal.ofBits .f32 0xFF800000#32) (fun k' => Y (ix2 p k')) := by
    intro k
    rw [Cert.Keepdims.broadcastTo_col_apply, Cert.Keepdims.cast_col_apply]
    exact Cert.RowReduce.multiReduction_max_row (M := 5000) (N := 64) Y _ reduces_S5000x64_S5000 _ _ p
  generalize hM : broadcastTo S5000x64 (shapeCast S5000x1 (multiReduction .maximumf [1] S5000 Y 0xFF800000#32 reduces_S5000x64_S5000 (.inl rfl) rfl)
        shapeCasts_S5000_S5000x1) broadcasts_S5000x1_S5000x64 = Mx at hmx ⊢
  show (Y (ix2 p q) - Mx (ix2 p q))
      - broadcastTo S5000x64 (log (shapeCast S5000x1 (multiReduction .add [1] S5000 (exp (subf Y Mx)) 0x00000000#32 reduces_S5000x64_S5000 (.inl rfl) rfl)
          shapeCasts_S5000_S5000x1)) broadcasts_S5000x1_S5000x64 (ix2 p q) = _
  rw [Cert.Keepdims.broadcastTo_col_apply]
  show (Y (ix2 p q) - Mx (ix2 p q))
      - Ideal.log (shapeCast S5000x1 (multiReduction .add [1] S5000 (exp (subf Y Mx)) 0x00000000#32 reduces_S5000x64_S5000 (.inl rfl) rfl)
          shapeCasts_S5000_S5000x1 (ix2 p (0 : Fin 1))) = _
  rw [Cert.Keepdims.cast_col_apply,
    show multiReduction .add [1] S5000 (exp (subf Y Mx)) 0x00000000#32 reduces_S5000x64_S5000 (.inl rfl) rfl (ix1 p)
        = ∑ k : Fin 64, exp (subf Y Mx) (ix2 p k)
      from Cert.RowReduce.multiReduction_add_row (M := 5000) (N := 64) _ _ reduces_S5000x64_S5000 _ _ p]
  unfold Cert.RowReduce.logSoftmaxRow
  rw [hmx q]
  have hrow : (fun k : Fin 64 => Y (ix2 p k)) = fun k => X (ix2 p k) * D (ix2 p (0 : Fin 1)) + B (ix2 (0 : Fin 1) k) :=
    funext hy
  have hsum : (∑ k : Fin 64, exp (subf Y Mx) (ix2 p k))
      = ∑ k : Fin 64, Ideal.exp (Y (ix2 p k) - (Finset.univ : Finset (Fin 64)).fold max (Ideal.ofBits .f32 0xFF800000#32) (fun k' => Y (ix2 p k'))) :=
    Finset.sum_congr rfl fun k _ => by
      show Ideal.exp (Y (ix2 p k) - Mx (ix2 p k)) = _
      rw [hmx k]
  rw [hsum, hrow, hy q]
  simp only [hy]

end Cert.KernelIdeal.Payloads

end
-- ==== Proof.BlockReads.lean ====
/-
  The windows of the four pallas_calls, read at an index. Every call runs over ten grid points; a row-blocked window is
  at block (t, 0) at point t, a window staged whole at block (0, 0). An entry of a window's block at point t is then
  the array's entry at (block index x block size + the entry's coordinate) on each axis; and the output window's ten
  row blocks of 5000 rows tile the array's 50000 rows. One lemma per window: the same statement at each window's
  names and sizes.
-/
import proofs.«168742_j9234179686680_1_alg».proof.Proof.Gen.KernelIdeal.Frame
import proofs.«168742_j9234179686680_1_alg».proof.Proof.Gen.ReferenceIdeal
import Idealize.ShloMosaic.Lib.Pipeline.Value
import Idealize.ShloMosaic.Lib.ValueIdx

set_option maxRecDepth 16384

noncomputable section

namespace Cert.KernelIdeal.BlockReads.Call0

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- Window 0 of call 0 is at block (t, 0) at grid point t. -/
theorem idx0 : ∀ t : Fin cfg0.N, win0_0.index t (0 : Fin 2) = t.val ∧ win0_0.index t (1 : Fin 2) = 0 :=
  (by decide +kernel : ∀ t : Fin grid0.N, _)

/-- Window 1 of call 0 is at block (t, 0) at grid point t. -/
theorem idx1 : ∀ t : Fin cfg0.N, win0_1.index t (0 : Fin 2) = t.val ∧ win0_1.index t (1 : Fin 2) = 0 :=
  (by decide +kernel : ∀ t : Fin grid0.N, _)

/-- Window 2 of call 0 is at block (t, 0) at grid point t. -/
theorem idx2 : ∀ t : Fin cfg0.N, win0_2.index t (0 : Fin 2) = t.val ∧ win0_2.index t (1 : Fin 2) = 0 :=
  (by decide +kernel : ∀ t : Fin grid0.N, _)

/-- Window 0 of call 0: entry (p, q) of block t is the array's entry (5000 t + p, q). -/
theorem read0 (A : (⟨Cert.ReferenceIdeal.S50000x128, .f32⟩ : BufTy).Contents (Elt Ideal)) (t : Fin cfg0.N)
    (x : S5000x128.Idx) (k : Cert.ReferenceIdeal.S50000x128.Idx)
    (hk0 : (k 0).val = t.val * 5000 + (x 0).val) (hk1 : (k 1).val = (x 1).val) :
    (((cfg0.win 0).blk t).view.read (Elt Ideal) A : FVec Ideal S5000x128 .f32) x = A k := by
  obtain ⟨i0, i1⟩ := idx0 t
  rw [View.read_apply]
  show A _ = A _
  congr 1
  funext a; apply Fin.ext
  match a with
  | ⟨0, _⟩ => show win0_0.index t (0 : Fin 2) * 5000 + 1 * (x 0).val = (k 0).val; rw [i0, hk0]; omega
  | ⟨1, _⟩ => show win0_0.index t (1 : Fin 2) * 128 + 1 * (x 1).val = (k 1).val; rw [i1, hk1]; omega

/-- Window 1 of call 0: entry (p, q) of block t is the array's entry (5000 t + p, q). -/
theorem read1 (A : (⟨Cert.ReferenceIdeal.S50000x1, .f32⟩ : BufTy).Contents (Elt Ideal)) (t : Fin cfg0.N)
    (x : S5000x1.Idx) (k : Cert.ReferenceIdeal.S50000x1.Idx)
    (hk0 : (k 0).val = t.val * 5000 + (x 0).val) (hk1 : (k 1).val = (x 1).val) :
    (((cfg0.win 1).blk t).view.read (Elt Ideal) A : FVec Ideal S5000x1 .f32) x = A k := by
  obtain ⟨i0, i1⟩ := idx1 t
  rw [View.read_apply]
  show A _ = A _
  congr 1
  funext a; apply Fin.ext
  match a with
  | ⟨0, _⟩ => show win0_1.index t (0 : Fin 2) * 5000 + 1 * (x 0).val = (k 0).val; rw [i0, hk0]; omega
  | ⟨1, _⟩ => show win0_1.index t (1 : Fin 2) * 1 + 1 * (x 1).val = (k 1).val; rw [i1, hk1]; omega

/-- Window 2 of call 0: entry (p, q) of block t is the array's entry (5000 t + p, q). -/
theorem read2 (A : (⟨Cert.ReferenceIdeal.S50000x128, .f32⟩ : BufTy).Contents (Elt Ideal)) (t : Fin cfg0.N)
    (x : S5000x128.Idx) (k : Cert.ReferenceIdeal.S50000x128.Idx)
    (hk0 : (k 0).val = t.val * 5000 + (x 0).val) (hk1 : (k 1).val = (x 1).val) :
    (((cfg0.win 2).blk t).view.read (Elt Ideal) A : FVec Ideal S5000x128 .f32) x = A k := by
  obtain ⟨i0, i1⟩ := idx2 t
  rw [View.read_apply]
  show A _ = A _
  congr 1
  funext a; apply Fin.ext
  match a with
  | ⟨0, _⟩ => show win0_2.index t (0 : Fin 2) * 5000 + 1 * (x 0).val = (k 0).val; rw [i0, hk0]; omega
  | ⟨1, _⟩ => show win0_2.index t (1 : Fin 2) * 128 + 1 * (x 1).val = (k 1).val; rw [i1, hk1]; omega

/-- An index of call 0's result array is in point t's block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v17).slice (win0_2.rect t)).set ↔ _
  rw [View.set_slice_whole, Rect.mem_set_unit]
  exact Iff.rfl

/-- Row r of call 0's result array lies in the block of grid point r / 5000: the ten blocks tile the rows. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := by show (i 0).val / 5000 < 10; omega
  refine ⟨⟨(i 0).val / 5000, hN⟩, flush0_2 _, ?_⟩
  obtain ⟨o0, o1⟩ := idx2 ⟨(i 0).val / 5000, hN⟩
  rw [mem_blk]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [o0]; show (i 0).val / 5000 * 5000 ≤ (i 0).val ∧ (i 0).val < (i 0).val / 5000 * 5000 + 5000; omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    rw [o1]; omega

end Cert.KernelIdeal.BlockReads.Call0

namespace Cert.KernelIdeal.BlockReads.Call1

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- Window 0 of call 1 is at block (t, 0) at grid point t. -/
theorem idx0 : ∀ t : Fin cfg1.N, win1_0.index t (0 : Fin 2) = t.val ∧ win1_0.index t (1 : Fin 2) = 0 :=
  (by decide +kernel : ∀ t : Fin grid1.N, _)

/-- Window 1 of call 1 is at block (0, 0) at grid point t. -/
theorem idx1 : ∀ t : Fin cfg1.N, win1_1.index t (0 : Fin 2) = 0 ∧ win1_1.index t (1 : Fin 2) = 0 :=
  (by decide +kernel : ∀ t : Fin grid1.N, _)

/-- Window 2 of call 1 is at block (0, 0) at grid point t. -/
theorem idx2 : ∀ t : Fin cfg1.N, win1_2.index t (0 : Fin 2) = 0 ∧ win1_2.index t (1 : Fin 2) = 0 :=
  (by decide +kernel : ∀ t : Fin grid1.N, _)

/-- Window 3 of call 1 is at block (t, 0) at grid point t. -/
theorem idx3 : ∀ t : Fin cfg1.N, win1_3.index t (0 : Fin 2) = t.val ∧ win1_3.index t (1 : Fin 2) = 0 :=
  (by decide +kernel : ∀ t : Fin grid1.N, _)

/-- Window 4 of call 1 is at block (t, 0) at grid point t. -/
theorem idx4 : ∀ t : Fin cfg1.N, win1_4.index t (0 : Fin 2) = t.val ∧ win1_4.index t (1 : Fin 2) = 0 :=
  (by decide +kernel : ∀ t : Fin grid1.N, _)

/-- Window 0 of call 1: entry (p, q) of block t is the array's entry (5000 t + p, q). -/
theorem read0 (A : (⟨Cert.ReferenceIdeal.S50000x128, .f32⟩ : BufTy).Contents (Elt Ideal)) (t : Fin cfg1.N)
    (x : S5000x128.Idx) (k : Cert.ReferenceIdeal.S50000x128.Idx)
    (hk0 : (k 0).val = t.val * 5000 + (x 0).val) (hk1 : (k 1).val = (x 1).val) :
    (((cfg1.win 0).blk t).view.read (Elt Ideal) A : FVec Ideal S5000x128 .f32) x = A k := by
  obtain ⟨i0, i1⟩ := idx0 t
  rw [View.read_apply]
  show A _ = A _
  congr 1
  funext a; apply Fin.ext
  match a with
  | ⟨0, _⟩ => show win1_0.index t (0 : Fin 2) * 5000 + 1 * (x 0).val = (k 0).val; rw [i0, hk0]; omega
  | ⟨1, _⟩ => show win1_0.index t (1 : Fin 2) * 128 + 1 * (x 1).val = (k 1).val; rw [i1, hk1]; omega

/-- Window 1 of call 1: the array is staged whole. -/
theorem read1 (A : (⟨Cert.ReferenceIdeal.S128x128, .f32⟩ : BufTy).Contents (Elt Ideal)) (t : Fin cfg1.N)
    (x : S128x128.Idx) (k : Cert.ReferenceIdeal.S128x128.Idx)
    (hk0 : (k 0).val = (x 0).val) (hk1 : (k 1).val = (x 1).val) :
    (((cfg1.win 1).blk t).view.read (Elt Ideal) A : FVec Ideal S128x128 .f32) x = A k := by
  obtain ⟨i0, i1⟩ := idx1 t
  rw [View.read_apply]
  show A _ = A _
  congr 1
  funext a; apply Fin.ext
  match a with
  | ⟨0, _⟩ => show win1_1.index t (0 : Fin 2) * 128 + 1 * (x 0).val = (k 0).val; rw [i0, hk0]; omega
  | ⟨1, _⟩ => show win1_1.index t (1 : Fin 2) * 128 + 1 * (x 1).val = (k 1).val; rw [i1, hk1]; omega

/-- Window 2 of call 1: the array is staged whole. -/
theorem read2 (A : (⟨Cert.ReferenceIdeal.S1x128, .f32⟩ : BufTy).Contents (Elt Ideal)) (t : Fin cfg1.N)
    (x : S1x128.Idx) (k : Cert.ReferenceIdeal.S1x128.Idx)
    (hk0 : (k 0).val = (x 0).val) (hk1 : (k 1).val = (x 1).val) :
    (((cfg1.win 2).blk t).view.read (Elt Ideal) A : FVec Ideal S1x128 .f32) x = A k := by
  obtain ⟨i0, i1⟩ := idx2 t
  rw [View.read_apply]
  show A _ = A _
  congr 1
  funext a; apply Fin.ext
  match a with
  | ⟨0, _⟩ => show win1_2.index t (0 : Fin 2) * 1 + 1 * (x 0).val = (k 0).val; rw [i0, hk0]; omega
  | ⟨1, _⟩ => show win1_2.index t (1 : Fin 2) * 128 + 1 * (x 1).val = (k 1).val; rw [i1, hk1]; omega

/-- Window 3 of call 1: entry (p, q) of block t is the array's entry (5000 t + p, q). -/
theorem read3 (A : (⟨Cert.ReferenceIdeal.S50000x1, .f32⟩ : BufTy).Contents (Elt Ideal)) (t : Fin cfg1.N)
    (x : S5000x1.Idx) (k : Cert.ReferenceIdeal.S50000x1.Idx)
    (hk0 : (k 0).val = t.val * 5000 + (x 0).val) (hk1 : (k 1).val = (x 1).val) :
    (((cfg1.win 3).blk t).view.read (Elt Ideal) A : FVec Ideal S5000x1 .f32) x = A k := by
  obtain ⟨i0, i1⟩ := idx3 t
  rw [View.read_apply]
  show A _ = A _
  congr 1
  funext a; apply Fin.ext
  match a with
  | ⟨0, _⟩ => show win1_3.index t (0 : Fin 2) * 5000 + 1 * (x 0).val = (k 0).val; rw [i0, hk0]; omega
  | ⟨1, _⟩ => show win1_3.index t (1 : Fin 2) * 1 + 1 * (x 1).val = (k 1).val; rw [i1, hk1]; omega

/-- Window 4 of call 1: entry (p, q) of block t is the array's entry (5000 t + p, q). -/
theorem read4 (A : (⟨Cert.ReferenceIdeal.S50000x128, .f32⟩ : BufTy).Contents (Elt Ideal)) (t : Fin cfg1.N)
    (x : S5000x128.Idx) (k : Cert.ReferenceIdeal.S50000x128.Idx)
    (hk0 : (k 0).val = t.val * 5000 + (x 0).val) (hk1 : (k 1).val = (x 1).val) :
    (((cfg1.win 4).blk t).view.read (Elt Ideal) A : FVec Ideal S5000x128 .f32) x = A k := by
  obtain ⟨i0, i1⟩ := idx4 t
  rw [View.read_apply]
  show A _ = A _
  congr 1
  funext a; apply Fin.ext
  match a with
  | ⟨0, _⟩ => show win1_4.index t (0 : Fin 2) * 5000 + 1 * (x 0).val = (k 0).val; rw [i0, hk0]; omega
  | ⟨1, _⟩ => show win1_4.index t (1 : Fin 2) * 128 + 1 * (x 1).val = (k 1).val; rw [i1, hk1]; omega

/-- An index of call 1's result array is in point t's block iff each coordinate is in the block's range. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v28).slice (win1_4.rect t)).set ↔ _
  rw [View.set_slice_whole, Rect.mem_set_unit]
  exact Iff.rfl

/-- Row r of call 1's result array lies in the block of grid point r / 5000: the ten blocks tile the rows. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : (i 0).val / 5000 < cfg1.N := by show (i 0).val / 5000 < 10; omega
  refine ⟨⟨(i 0).val / 5000, hN⟩, flush1_4 _, ?_⟩
  obtain ⟨o0, o1⟩ := idx4 ⟨(i 0).val / 5000, hN⟩
  rw [mem_blk]
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    rw [o0]; show (i 0).val / 5000 * 5000 ≤ (i 0).val ∧ (i 0).val < (i 0).val / 5000 * 5000 + 5000; omega
  | ⟨1, _⟩ =>
    show win1_4.index ⟨(i 0).val / 5000, hN⟩ (1 : Fin 2) * 128 ≤ (i 1).val ∧ (i 1).val < win1_4.index ⟨(i 0).val / 5000, hN⟩ (1 : Fin 2) * 128 + 128
    rw [o1]; omega

end Cert.KernelIdeal.BlockReads.Call1

namespace Cert.KernelIdeal.BlockReads.Call2

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- Window 0 of call 2 is at block (t, 0) at grid point t. -/
theorem idx0 : ∀ t : Fin cfg2.N, win2_0.index t (0 : Fin 2) = t.val ∧ win2_0.index t (1 : Fin 2) = 0 :=
  (by decide +kernel : ∀ t : Fin grid2.N, _)

/-- Window 1 of call 2 is at block (t, 0) at grid point t. -/
theorem idx1 : ∀ t : Fin cfg2.N, win2_1.index t (0 : Fin 2) = t.val ∧ win2_1.index t (1 : Fin 2) = 0 :=
  (by decide +kernel : ∀ t : Fin grid2.N, _)

/-- Window 2 of call 2 is at block (0, 0) at grid point t. -/
theorem idx2 : ∀ t : Fin cfg2.N, win2_2.index t (0 : Fin 2) = 0 ∧ win2_2.index t (1 : Fin 2) = 0 :=
  (by decide +kernel : ∀ t : Fin grid2.N, _)

/-- Window 3 of call 2 is at block (t, 0) at grid point t. -/
theorem idx3 : ∀ t : Fin cfg2.N, win2_3.index t (0 : Fin 2) = t.val ∧ win2_3.index t (1 : Fin 2) = 0 :=
  (by decide +kernel : ∀ t : Fin grid2.N, _)

/-- Window 0 of call 2: entry (p, q) of block t is the array's entry (5000 t + p, q). -/
theorem read0 (A : (⟨Cert.ReferenceIdeal.S50000x128, .f32⟩ : BufTy).Contents (Elt Ideal)) (t : Fin cfg2.N)
    (x : S5000x128.Idx) (k : Cert.ReferenceIdeal.S50000x128.Idx)
    (hk0 : (k 0).val = t.val * 5000 + (x 0).val) (hk1 : (k 1).val = (x 1).val) :
    (((cfg2.win 0).blk t).view.read (Elt Ideal) A : FVec Ideal S5000x128 .f32) x = A k := by
  obtain ⟨i0, i1⟩ := idx0 t
  rw [View.read_apply]
  show A _ = A _
  congr 1
  funext a; apply Fin.ext
  match a with
  | ⟨0, _⟩ => show win2_0.index t (0 : Fin 2) * 5000 + 1 * (x 0).val = (k 0).val; rw [i0, hk0]; omega
  | ⟨1, _⟩ => show win2_0.index t (1 : Fin 2) * 128 + 1 * (x 1).val = (k 1).val; rw [i1, hk1]; omega

/-- Window 1 of call 2: entry (p, q) of block t is the array's entry (5000 t + p, q). -/
theorem read1 (A : (⟨Cert.ReferenceIdeal.S50000x1, .f32⟩ : BufTy).Contents (Elt Ideal)) (t : Fin cfg2.N)
    (x : S5000x1.Idx) (k : Cert.ReferenceIdeal.S50000x1.Idx)
    (hk0 : (k 0).val = t.val * 5000 + (x 0).val) (hk1 : (k 1).val = (x 1).val) :
    (((cfg2.win 1).blk t).view.read (Elt Ideal) A : FVec Ideal S5000x1 .f32) x = A k := by
  obtain ⟨i0, i1⟩ := idx1 t
  rw [View.read_apply]
  show A _ = A _
  congr 1
  funext a; apply Fin.ext
  match a with
  | ⟨0, _⟩ => show win2_1.index t (0 : Fin 2) * 5000 + 1 * (x 0).val = (k 0).val; rw [i0, hk0]; omega
  | ⟨1, _⟩ => show win2_1.index t (1 : Fin 2) * 1 + 1 * (x 1).val = (k 1).val; rw [i1, hk1]; omega

/-- Window 2 of call 2: the array is staged whole. -/
theorem read2 (A : (⟨Cert.ReferenceIdeal.S128x64, .f32⟩ : BufTy).Contents (Elt Ideal)) (t : Fin cfg2.N)
    (x : S128x64.Idx) (k : Cert.ReferenceIdeal.S128x64.Idx)
    (hk0 : (k 0).val = (x 0).val) (hk1 : (k 1).val = (x 1).val) :
    (((cfg2.win 2).blk t).view.read (Elt Ideal) A : FVec Ideal S128x64 .f32) x = A k := by
  obtain ⟨i0, i1⟩ := idx2 t
  rw [View.read_apply]
  show A _ = A _
  congr 1
  funext a; apply Fin.ext
  match a with
  | ⟨0, _⟩ => show win2_2.index t (0 : Fin 2) * 128 + 1 * (x 0).val = (k 0).val; rw [i0, hk0]; omega
  | ⟨1, _⟩ => show win2_2.index t (1 : Fin 2) * 64 + 1 * (x 1).val = (k 1).val; rw [i1, hk1]; omega

/-- Window 3 of call 2: entry (p, q) of block t is the array's entry (5000 t + p, q). -/
theorem read3 (A : (⟨Cert.ReferenceIdeal.S50000x64, .f32⟩ : BufTy).Contents (Elt Ideal)) (t : Fin cfg2.N)
    (x : S5000x64.Idx) (k : Cert.ReferenceIdeal.S50000x64.Idx)
    (hk0 : (k 0).val = t.val * 5000 + (x 0).val) (hk1 : (k 1).val = (x 1).val) :
    (((cfg2.win 3).blk t).view.read (Elt Ideal) A : FVec Ideal S5000x64 .f32) x = A k := by
  obtain ⟨i0, i1⟩ := idx3 t
  rw [View.read_apply]
  show A _ = A _
  congr 1
  funext a; apply Fin.ext
  match a with
  | ⟨0, _⟩ => show win2_3.index t (0 : Fin 2) * 5000 + 1 * (x 0).val = (k 0).val; rw [i0, hk0]; omega
  | ⟨1, _⟩ => show win2_3.index t (1 : Fin 2) * 64 + 1 * (x 1).val = (k 1).val; rw [i1, hk1]; omega

/-- An index of call 2's result array is in point t's block iff each coordinate is in the block's range. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v29).slice (win2_3.rect t)).set ↔ _
  rw [View.set_slice_whole, Rect.mem_set_unit]
  exact Iff.rfl

/-- Row r of call 2's result array lies in the block of grid point r / 5000: the ten blocks tile the rows. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : (i 0).val / 5000 < cfg2.N := by show (i 0).val / 5000 < 10; omega
  refine ⟨⟨(i 0).val / 5000, hN⟩, flush2_3 _, ?_⟩
  obtain ⟨o0, o1⟩ := idx3 ⟨(i 0).val / 5000, hN⟩
  rw [mem_blk]
  intro a
  match a with
  | ⟨0, _⟩ =>
    show win2_3.index ⟨(i 0).val / 5000, hN⟩ (0 : Fin 2) * 5000 ≤ (i 0).val ∧ (i 0).val < win2_3.index ⟨(i 0).val / 5000, hN⟩ (0 : Fin 2) * 5000 + 5000
    rw [o0]; show (i 0).val / 5000 * 5000 ≤ (i 0).val ∧ (i 0).val < (i 0).val / 5000 * 5000 + 5000; omega
  | ⟨1, _⟩ =>
    show win2_3.index ⟨(i 0).val / 5000, hN⟩ (1 : Fin 2) * 64 ≤ (i 1).val ∧ (i 1).val < win2_3.index ⟨(i 0).val / 5000, hN⟩ (1 : Fin 2) * 64 + 64
    rw [o1]; omega

end Cert.KernelIdeal.BlockReads.Call2

namespace Cert.KernelIdeal.BlockReads.Call3

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- Window 0 of call 3 is at block (t, 0) at grid point t. -/
theorem idx0 : ∀ t : Fin cfg3.N, win3_0.index t (0 : Fin 2) = t.val ∧ win3_0.index t (1 : Fin 2) = 0 :=
  (by decide +kernel : ∀ t : Fin grid3.N, _)

/-- Window 1 of call 3 is at block (t, 0) at grid point t. -/
theorem idx1 : ∀ t : Fin cfg3.N, win3_1.index t (0 : Fin 2) = t.val ∧ win3_1.index t (1 : Fin 2) = 0 :=
  (by decide +kernel : ∀ t : Fin grid3.N, _)

/-- Window 2 of call 3 is at block (0, 0) at grid point t. -/
theorem idx2 : ∀ t : Fin cfg3.N, win3_2.index t (0 : Fin 2) = 0 ∧ win3_2.index t (1 : Fin 2) = 0 :=
  (by decide +kernel : ∀ t : Fin grid3.N, _)

/-- Window 3 of call 3 is at block (t, 0) at grid point t. -/
theorem idx3 : ∀ t : Fin cfg3.N, win3_3.index t (0 : Fin 2) = t.val ∧ win3_3.index t (1 : Fin 2) = 0 :=
  (by decide +kernel : ∀ t : Fin grid3.N, _)

/-- Window 0 of call 3: entry (p, q) of block t is the array's entry (5000 t + p, q). -/
theorem read0 (A : (⟨Cert.ReferenceIdeal.S50000x64, .f32⟩ : BufTy).Contents (Elt Ideal)) (t : Fin cfg3.N)
    (x : S5000x64.Idx) (k : Cert.ReferenceIdeal.S50000x64.Idx)
    (hk0 : (k 0).val = t.val * 5000 + (x 0).val) (hk1 : (k 1).val = (x 1).val) :
    (((cfg3.win 0).blk t).view.read (Elt Ideal) A : FVec Ideal S5000x64 .f32) x = A k := by
  obtain ⟨i0, i1⟩ := idx0 t
  rw [View.read_apply]
  show A _ = A _
  congr 1
  funext a; apply Fin.ext
  match a with
  | ⟨0, _⟩ => show win3_0.index t (0 : Fin 2) * 5000 + 1 * (x 0).val = (k 0).val; rw [i0, hk0]; omega
  | ⟨1, _⟩ => show win3_0.index t (1 : Fin 2) * 64 + 1 * (x 1).val = (k 1).val; rw [i1, hk1]; omega

/-- Window 1 of call 3: entry (p, q) of block t is the array's entry (5000 t + p, q). -/
theorem read1 (A : (⟨Cert.ReferenceIdeal.S50000x1, .f32⟩ : BufTy).Contents (Elt Ideal)) (t : Fin cfg3.N)
    (x : S5000x1.Idx) (k : Cert.ReferenceIdeal.S50000x1.Idx)
    (hk0 : (k 0).val = t.val * 5000 + (x 0).val) (hk1 : (k 1).val = (x 1).val) :
    (((cfg3.win 1).blk t).view.read (Elt Ideal) A : FVec Ideal S5000x1 .f32) x = A k := by
  obtain ⟨i0, i1⟩ := idx1 t
  rw [View.read_apply]
  show A _ = A _
  congr 1
  funext a; apply Fin.ext
  match a with
  | ⟨0, _⟩ => show win3_1.index t (0 : Fin 2) * 5000 + 1 * (x 0).val = (k 0).val; rw [i0, hk0]; omega
  | ⟨1, _⟩ => show win3_1.index t (1 : Fin 2) * 1 + 1 * (x 1).val = (k 1).val; rw [i1, hk1]; omega

/-- Window 2 of call 3: the array is staged whole. -/
theorem read2 (A : (⟨Cert.ReferenceIdeal.S1x64, .f32⟩ : BufTy).Contents (Elt Ideal)) (t : Fin cfg3.N)
    (x : S1x64.Idx) (k : Cert.ReferenceIdeal.S1x64.Idx)
    (hk0 : (k 0).val = (x 0).val) (hk1 : (k 1).val = (x 1).val) :
    (((cfg3.win 2).blk t).view.read (Elt Ideal) A : FVec Ideal S1x64 .f32) x = A k := by
  obtain ⟨i0, i1⟩ := idx2 t
  rw [View.read_apply]
  show A _ = A _
  congr 1
  funext a; apply Fin.ext
  match a with
  | ⟨0, _⟩ => show win3_2.index t (0 : Fin 2) * 1 + 1 * (x 0).val = (k 0).val; rw [i0, hk0]; omega
  | ⟨1, _⟩ => show win3_2.index t (1 : Fin 2) * 64 + 1 * (x 1).val = (k 1).val; rw [i1, hk1]; omega

/-- Window 3 of call 3: entry (p, q) of block t is the array's entry (5000 t + p, q). -/
theorem read3 (A : (⟨Cert.ReferenceIdeal.S50000x64, .f32⟩ : BufTy).Contents (Elt Ideal)) (t : Fin cfg3.N)
    (x : S5000x64.Idx) (k : Cert.ReferenceIdeal.S50000x64.Idx)
    (hk0 : (k 0).val = t.val * 5000 + (x 0).val) (hk1 : (k 1).val = (x 1).val) :
    (((cfg3.win 3).blk t).view.read (Elt Ideal) A : FVec Ideal S5000x64 .f32) x = A k := by
  obtain ⟨i0, i1⟩ := idx3 t
  rw [View.read_apply]
  show A _ = A _
  congr 1
  funext a; apply Fin.ext
  match a with
  | ⟨0, _⟩ => show win3_3.index t (0 : Fin 2) * 5000 + 1 * (x 0).val = (k 0).val; rw [i0, hk0]; omega
  | ⟨1, _⟩ => show win3_3.index t (1 : Fin 2) * 64 + 1 * (x 1).val = (k 1).val; rw [i1, hk1]; omega

/-- An index of call 3's result array is in point t's block iff each coordinate is in the block's range. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v40).slice (win3_3.rect t)).set ↔ _
  rw [View.set_slice_whole, Rect.mem_set_unit]
  exact Iff.rfl

/-- Row r of call 3's result array lies in the block of grid point r / 5000: the ten blocks tile the rows. -/
theorem cover (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : (i 0).val / 5000 < cfg3.N := by show (i 0).val / 5000 < 10; omega
  refine ⟨⟨(i 0).val / 5000, hN⟩, flush3_3 _, ?_⟩
  obtain ⟨o0, o1⟩ := idx3 ⟨(i 0).val / 5000, hN⟩
  rw [mem_blk]
  intro a
  match a with
  | ⟨0, _⟩ =>
    show win3_3.index ⟨(i 0).val / 5000, hN⟩ (0 : Fin 2) * 5000 ≤ (i 0).val ∧ (i 0).val < win3_3.index ⟨(i 0).val / 5000, hN⟩ (0 : Fin 2) * 5000 + 5000
    rw [o0]; show (i 0).val / 5000 * 5000 ≤ (i 0).val ∧ (i 0).val < (i 0).val / 5000 * 5000 + 5000; omega
  | ⟨1, _⟩ =>
    show win3_3.index ⟨(i 0).val / 5000, hN⟩ (1 : Fin 2) * 64 ≤ (i 1).val ∧ (i 1).val < win3_3.index ⟨(i 0).val / 5000, hN⟩ (1 : Fin 2) * 64 + 64
    rw [o1]; omega

end Cert.KernelIdeal.BlockReads.Call3

end
-- ==== Proof.DegreeScale.lean ====
/-
  The first pallas_call: every row of the feature array multiplied by that row's entry of a one-column array
  (the inverse square root of the node's out-degree). Read at an index (r, q) the stored block is
  x (r, q) * d (r, 0), which is the reference's product of the features with the column broadcast along the rows,
  read at (r, q), whenever the arrays the call finds are the features and the reference's column; the ten row blocks
  tile the 50000 rows.
-/
import proofs.«168742_j9234179686680_1_alg».proof.Proof.Gen.KernelIdeal.Frame
import proofs.«168742_j9234179686680_1_alg».proof.Proof.RefRead
import proofs.«168742_j9234179686680_1_alg».proof.Proof.Payloads
import proofs.«168742_j9234179686680_1_alg».proof.Proof.BlockReads
import Idealize.ShloMosaic.Lib.Pipeline.Value
import Idealize.ShloMosaic.Lib.ValueIdx

set_option maxRecDepth 16384

noncomputable section

namespace Cert.KernelIdeal.DegreeScale

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The two zero offsets, as the constant function. -/
theorem hz : (![0, 0] : Fin 2 → Nat) = fun _ => 0 := funext fun a => by fin_cases a <;> rfl

variable (V : (c : Dev nD) → (b : Ref sig .tc) → Buf (Elt Ideal) ((c : Thread nD τ).loc b))

variable (x0 : (⟨Cert.ReferenceIdeal.S50000x128, .f32⟩ : BufTy).Contents (Elt Ideal))
  (x1 : (⟨Cert.ReferenceIdeal.S800000, .i32⟩ : BufTy).Contents (Elt Ideal))

/-- What grid point t writes back is block t of the reference's scaled features. -/
theorem flushed_eq (c : Dev nD) (t : Fin cfg0.N)
    (h0 : V c main_arg0 = x0) (h1 : V c main_v11 = Cert.ReferenceIdeal.ReadP.val_main_v11 x1) :
    (dat0 V c).flushed 2 t
      = ((cfg0.win 2).blk t).view.read (Elt Ideal) (Cert.ReferenceIdeal.ReadP.val_main_v13 x0 x1) := by
  show (cfg0.win 2).cut (grid0.coords t) ((dat0 V c).after 2 t) = _
  rw [after0_2]
  have hb0 : iblk0 V c 0 t = ((cfg0.win 0).blk t).view.read (Elt Ideal) x0 :=
    congrArg (((cfg0.win 0).blk t).view.read (Elt Ideal)) h0
  have hb1 : iblk0 V c 1 t = ((cfg0.win 1).blk t).view.read (Elt Ideal) (Cert.ReferenceIdeal.ReadP.val_main_v11 x1) :=
    congrArg (((cfg0.win 1).blk t).view.read (Elt Ideal)) h1
  rw [hb0, hb1]
  unfold out0_2
  rw [View.canon_unit_zero hz]
  simp only [View.ld_unit_zero (S := S5000x128) hz, View.ld_unit_zero (S := S5000x1) hz]
  funext j
  have hj0 : (j 0).val < 5000 := (j 0).isLt
  have hj1 : (j 1).val < 128 := (j 1).isLt
  have ht : t.val < 10 := lt_of_lt_of_eq t.isLt N_0
  refine (congrFun (Cert.KernelIdeal.Payloads.scale_eq _ _) _).trans ?_
  refine Eq.trans ?_ (Cert.KernelIdeal.BlockReads.Call0.read2 (Cert.ReferenceIdeal.ReadP.val_main_v13 x0 x1) t j (ix2 (⟨t.val * 5000 + (j 0).val, by omega⟩ : Fin 50000) (⟨(j 1).val, hj1⟩ : Fin 128)) rfl rfl).symm
  rw [Cert.ReferenceIdeal.ReadP.val_main_v13_apply, Cert.ReferenceIdeal.ReadP.val_main_v12_apply, Ideal.mulf_def]
  exact congrArg₂ (fun (u v : Ideal .f32) => u * v)
    (Cert.KernelIdeal.BlockReads.Call0.read0 x0 t _ _ rfl rfl)
    (Cert.KernelIdeal.BlockReads.Call0.read1 (Cert.ReferenceIdeal.ReadP.val_main_v11 x1) t _ (Cert.ReferenceIdeal.ReadP.idx_main_v12 _) rfl rfl)

/-- The array this call leaves: the reference's features scaled row by row, when the call finds the features
    and the reference's column of factors. -/
theorem arr (c : Dev nD)
    (h0 : V c main_arg0 = x0) (h1 : V c main_v11 = Cert.ReferenceIdeal.ReadP.val_main_v11 x1) :
    (dat0 V c).arrAt 2 cfg0.N = Cert.ReferenceIdeal.ReadP.val_main_v13 x0 x1 :=
  (dat0 V c).arrAt_eq_of_cover 2 (Cert.ReferenceIdeal.ReadP.val_main_v13 x0 x1)
    (fun t _ => flushed_eq V x0 x1 c t h0 h1) Cert.KernelIdeal.BlockReads.Call0.cover

end Cert.KernelIdeal.DegreeScale

end
-- ==== Proof.ConvRelu.lean ====
/-
  The second pallas_call, the dense part of the first graph-convolution layer: each block of 5000 rows of the
  aggregated features times the 128 x 128 weights, every row then multiplied by its in-degree factor, the bias
  row added, and the rectifier. At (r, q) that is max ((Σ k, a (r, k) * w (k, q)) * d (r, 0) + b (0, q)) 0,
  which is the reference's rectified layer read at (r, q); the ten row blocks tile the 50000 rows.
-/
import proofs.«168742_j9234179686680_1_alg».proof.Proof.Gen.KernelIdeal.Frame
import proofs.«168742_j9234179686680_1_alg».proof.Proof.RefRead
import proofs.«168742_j9234179686680_1_alg».proof.Proof.Payloads
import proofs.«168742_j9234179686680_1_alg».proof.Proof.BlockReads
import Idealize.ShloMosaic.Lib.Pipeline.Value
import Idealize.ShloMosaic.Lib.ValueIdx

set_option maxRecDepth 16384

noncomputable section

namespace Cert.KernelIdeal.ConvRelu

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The two zero offsets, as the constant function. -/
theorem hz : (![0, 0] : Fin 2 → Nat) = fun _ => 0 := funext fun a => by fin_cases a <;> rfl

variable (V : (c : Dev nD) → (b : Ref sig .tc) → Buf (Elt Ideal) ((c : Thread nD τ).loc b))

variable (x0 : (⟨Cert.ReferenceIdeal.S50000x128, .f32⟩ : BufTy).Contents (Elt Ideal))
  (x1 x2 : (⟨Cert.ReferenceIdeal.S800000, .i32⟩ : BufTy).Contents (Elt Ideal))
  (x3 : (⟨Cert.ReferenceIdeal.S128x128, .f32⟩ : BufTy).Contents (Elt Ideal))
  (x4 : (⟨Cert.ReferenceIdeal.S128, .f32⟩ : BufTy).Contents (Elt Ideal))

/-- What grid point t writes back is block t of the reference's rectified first layer. -/
theorem flushed_eq (c : Dev nD) (t : Fin cfg1.N)
    (hA : V c main_v27 = Cert.ReferenceIdeal.ReadP.val_main_v23 x0 x1 x2) (hW : V c main_arg3 = x3)
    (hB : V c main_v15 = Cert.ReferenceIdeal.ReadP.val_main_v30 x4) (hD : V c main_v14 = Cert.ReferenceIdeal.ReadP.val_main_v27 x2) :
    (dat1 V c).flushed 4 t
      = ((cfg1.win 4).blk t).view.read (Elt Ideal) (Cert.ReferenceIdeal.ReadP.val_main_v33 x0 x1 x2 x3 x4) := by
  show (cfg1.win 4).cut (grid1.coords t) ((dat1 V c).after 4 t) = _
  rw [after1_4]
  have hb0 : iblk1 V c 0 t = ((cfg1.win 0).blk t).view.read (Elt Ideal) (Cert.ReferenceIdeal.ReadP.val_main_v23 x0 x1 x2) :=
    congrArg (((cfg1.win 0).blk t).view.read (Elt Ideal)) hA
  have hb1 : iblk1 V c 1 t = ((cfg1.win 1).blk t).view.read (Elt Ideal) x3 :=
    congrArg (((cfg1.win 1).blk t).view.read (Elt Ideal)) hW
  have hb2 : iblk1 V c 2 t = ((cfg1.win 2).blk t).view.read (Elt Ideal) (Cert.ReferenceIdeal.ReadP.val_main_v30 x4) :=
    congrArg (((cfg1.win 2).blk t).view.read (Elt Ideal)) hB
  have hb3 : iblk1 V c 3 t = ((cfg1.win 3).blk t).view.read (Elt Ideal) (Cert.ReferenceIdeal.ReadP.val_main_v27 x2) :=
    congrArg (((cfg1.win 3).blk t).view.read (Elt Ideal)) hD
  rw [hb0, hb1, hb2, hb3]
  unfold out1_4
  rw [View.canon_unit_zero hz]
  simp only [View.ld_unit_zero (S := S5000x128) hz, View.ld_unit_zero (S := S128x128) hz,
    View.ld_unit_zero (S := S5000x1) hz, View.ld_unit_zero (S := S1x128) hz]
  funext j
  have hj0 : (j 0).val < 5000 := (j 0).isLt
  have hj1 : (j 1).val < 128 := (j 1).isLt
  have ht : t.val < 10 := lt_of_lt_of_eq t.isLt N_1
  refine (congrFun (Cert.KernelIdeal.Payloads.conv_eq _ _ _ _) _).trans ?_
  refine Eq.trans ?_ (Cert.KernelIdeal.BlockReads.Call1.read4 (Cert.ReferenceIdeal.ReadP.val_main_v33 x0 x1 x2 x3 x4) t j (ix2 (⟨t.val * 5000 + (j 0).val, by omega⟩ : Fin 50000) (⟨(j 1).val, hj1⟩ : Fin 128)) rfl rfl).symm
  rw [Cert.ReferenceIdeal.ReadP.val_main_v33_apply, Cert.ReferenceIdeal.ReadP.val_main_v32_apply, Cert.ReferenceIdeal.ReadP.val_main_v29_apply,
    Cert.ReferenceIdeal.ReadP.val_main_v24_apply, Cert.ReferenceIdeal.ReadP.val_main_v28_apply, Cert.ReferenceIdeal.ReadP.val_main_v31_apply,
    Cert.ReferenceIdeal.ReadP.val_main_call2_v0_apply, Cert.ReferenceIdeal.ReadP.val_main_call2_cst_apply,
    Ideal.maximumf_def, Ideal.addf_def, Ideal.mulf_def, Ideal.ofBits_def]
  exact congrArg₂ (fun (u v : Ideal .f32) => max u v)
    (congrArg₂ (fun (u v : Ideal .f32) => u + v)
      (congrArg₂ (fun (u v : Ideal .f32) => u * v)
        (Finset.sum_congr rfl fun k _ => congrArg₂ (fun (u v : Ideal .f32) => u * v)
          (Cert.KernelIdeal.BlockReads.Call1.read0 (Cert.ReferenceIdeal.ReadP.val_main_v23 x0 x1 x2) t _ (Cert.ReferenceIdeal.ReadP.lidx_main_v24 _ k) rfl rfl)
          (Cert.KernelIdeal.BlockReads.Call1.read1 x3 t _ (Cert.ReferenceIdeal.ReadP.ridx_main_v24 _ k) rfl rfl))
        (Cert.KernelIdeal.BlockReads.Call1.read3 (Cert.ReferenceIdeal.ReadP.val_main_v27 x2) t _ (Cert.ReferenceIdeal.ReadP.idx_main_v28 _) rfl rfl))
      (Cert.KernelIdeal.BlockReads.Call1.read2 (Cert.ReferenceIdeal.ReadP.val_main_v30 x4) t _ (Cert.ReferenceIdeal.ReadP.idx_main_v31 _) rfl rfl))
    rfl

/-- The array this call leaves is the reference's rectified first layer, when the call finds the reference's
    aggregated features, the weights, the bias as one row and the column of in-degree factors. -/
theorem arr (c : Dev nD)
    (hA : V c main_v27 = Cert.ReferenceIdeal.ReadP.val_main_v23 x0 x1 x2) (hW : V c main_arg3 = x3)
    (hB : V c main_v15 = Cert.ReferenceIdeal.ReadP.val_main_v30 x4) (hD : V c main_v14 = Cert.ReferenceIdeal.ReadP.val_main_v27 x2) :
    (dat1 V c).arrAt 4 cfg1.N = Cert.ReferenceIdeal.ReadP.val_main_v33 x0 x1 x2 x3 x4 :=
  (dat1 V c).arrAt_eq_of_cover 4 (Cert.ReferenceIdeal.ReadP.val_main_v33 x0 x1 x2 x3 x4)
    (fun t _ => flushed_eq V x0 x1 x2 x3 x4 c t hA hW hB hD) Cert.KernelIdeal.BlockReads.Call1.cover

end Cert.KernelIdeal.ConvRelu

end
-- ==== Proof.ScaleProject.lean ====
/-
  The third pallas_call, the dense part in front of the second layer's aggregation: every row of the first
  layer's output multiplied by its out-degree factor, then the product with the 128 x 64 weights. At (r, q)
  that is Σ k, (x (r, k) * d (r, 0)) * w (k, q), which is the reference's projected features read at (r, q);
  the ten row blocks tile the 50000 rows.
-/
import proofs.«168742_j9234179686680_1_alg».proof.Proof.Gen.KernelIdeal.Frame
import proofs.«168742_j9234179686680_1_alg».proof.Proof.RefRead
import proofs.«168742_j9234179686680_1_alg».proof.Proof.Payloads
import proofs.«168742_j9234179686680_1_alg».proof.Proof.BlockReads
import Idealize.ShloMosaic.Lib.Pipeline.Value
import Idealize.ShloMosaic.Lib.ValueIdx

set_option maxRecDepth 16384

noncomputable section

namespace Cert.KernelIdeal.ScaleProject

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The two zero offsets, as the constant function. -/
theorem hz : (![0, 0] : Fin 2 → Nat) = fun _ => 0 := funext fun a => by fin_cases a <;> rfl

variable (V : (c : Dev nD) → (b : Ref sig .tc) → Buf (Elt Ideal) ((c : Thread nD τ).loc b))

variable (x0 : (⟨Cert.ReferenceIdeal.S50000x128, .f32⟩ : BufTy).Contents (Elt Ideal))
  (x1 x2 : (⟨Cert.ReferenceIdeal.S800000, .i32⟩ : BufTy).Contents (Elt Ideal))
  (x3 : (⟨Cert.ReferenceIdeal.S128x128, .f32⟩ : BufTy).Contents (Elt Ideal))
  (x4 : (⟨Cert.ReferenceIdeal.S128, .f32⟩ : BufTy).Contents (Elt Ideal))
  (x5 : (⟨Cert.ReferenceIdeal.S128x64, .f32⟩ : BufTy).Contents (Elt Ideal))

/-- What grid point t writes back is block t of the reference's projected features. -/
theorem flushed_eq (c : Dev nD) (t : Fin cfg2.N)
    (hX : V c main_v28 = Cert.ReferenceIdeal.ReadP.val_main_v33 x0 x1 x2 x3 x4) (hD : V c main_v11 = Cert.ReferenceIdeal.ReadP.val_main_v45 x1)
    (hW : V c main_arg5 = x5) :
    (dat2 V c).flushed 3 t
      = ((cfg2.win 3).blk t).view.read (Elt Ideal) (Cert.ReferenceIdeal.ReadP.val_main_v48 x0 x1 x2 x3 x4 x5) := by
  show (cfg2.win 3).cut (grid2.coords t) ((dat2 V c).after 3 t) = _
  rw [after2_3]
  have hb0 : iblk2 V c 0 t = ((cfg2.win 0).blk t).view.read (Elt Ideal) (Cert.ReferenceIdeal.ReadP.val_main_v33 x0 x1 x2 x3 x4) :=
    congrArg (((cfg2.win 0).blk t).view.read (Elt Ideal)) hX
  have hb1 : iblk2 V c 1 t = ((cfg2.win 1).blk t).view.read (Elt Ideal) (Cert.ReferenceIdeal.ReadP.val_main_v45 x1) :=
    congrArg (((cfg2.win 1).blk t).view.read (Elt Ideal)) hD
  have hb2 : iblk2 V c 2 t = ((cfg2.win 2).blk t).view.read (Elt Ideal) x5 :=
    congrArg (((cfg2.win 2).blk t).view.read (Elt Ideal)) hW
  rw [hb0, hb1, hb2]
  unfold out2_3
  rw [View.canon_unit_zero hz]
  simp only [View.ld_unit_zero (S := S5000x128) hz, View.ld_unit_zero (S := S5000x1) hz,
    View.ld_unit_zero (S := S128x64) hz]
  funext j
  have hj0 : (j 0).val < 5000 := (j 0).isLt
  have hj1 : (j 1).val < 64 := (j 1).isLt
  have ht : t.val < 10 := lt_of_lt_of_eq t.isLt N_2
  refine (congrFun (Cert.KernelIdeal.Payloads.project_eq _ _ _) _).trans ?_
  refine Eq.trans ?_ (Cert.KernelIdeal.BlockReads.Call2.read3 (Cert.ReferenceIdeal.ReadP.val_main_v48 x0 x1 x2 x3 x4 x5) t j (ix2 (⟨t.val * 5000 + (j 0).val, by omega⟩ : Fin 50000) (⟨(j 1).val, hj1⟩ : Fin 64)) rfl rfl).symm
  rw [Cert.ReferenceIdeal.ReadP.val_main_v48_apply]
  refine Finset.sum_congr rfl fun k _ => ?_
  rw [Cert.ReferenceIdeal.ReadP.val_main_v47_apply, Cert.ReferenceIdeal.ReadP.val_main_v46_apply, Ideal.mulf_def]
  exact congrArg₂ (fun (u v : Ideal .f32) => u * v)
    (congrArg₂ (fun (u v : Ideal .f32) => u * v)
      (Cert.KernelIdeal.BlockReads.Call2.read0 (Cert.ReferenceIdeal.ReadP.val_main_v33 x0 x1 x2 x3 x4) t _ (Cert.ReferenceIdeal.ReadP.lidx_main_v48 _ k) rfl rfl)
      (Cert.KernelIdeal.BlockReads.Call2.read1 (Cert.ReferenceIdeal.ReadP.val_main_v45 x1) t _ (Cert.ReferenceIdeal.ReadP.idx_main_v46 (Cert.ReferenceIdeal.ReadP.lidx_main_v48 _ k)) rfl rfl))
    (Cert.KernelIdeal.BlockReads.Call2.read2 x5 t _ (Cert.ReferenceIdeal.ReadP.ridx_main_v48 _ k) rfl rfl)

/-- The array this call leaves is the reference's projected features, when the call finds the reference's first
    layer, the column of out-degree factors and the weights. -/
theorem arr (c : Dev nD)
    (hX : V c main_v28 = Cert.ReferenceIdeal.ReadP.val_main_v33 x0 x1 x2 x3 x4) (hD : V c main_v11 = Cert.ReferenceIdeal.ReadP.val_main_v45 x1)
    (hW : V c main_arg5 = x5) :
    (dat2 V c).arrAt 3 cfg2.N = Cert.ReferenceIdeal.ReadP.val_main_v48 x0 x1 x2 x3 x4 x5 :=
  (dat2 V c).arrAt_eq_of_cover 3 (Cert.ReferenceIdeal.ReadP.val_main_v48 x0 x1 x2 x3 x4 x5)
    (fun t _ => flushed_eq V x0 x1 x2 x3 x4 x5 c t hX hD hW) Cert.KernelIdeal.BlockReads.Call2.cover

end Cert.KernelIdeal.ScaleProject

end
-- ==== Proof.RefLogSoftmax.lean ====
/-
  The reference's last stage, read at an index. Its scaled and shifted aggregate y at (r, k) is
  a (r, k) * d (r, 0) + b (0, k); its row maximum — the host's reduction from the -infinity word, then the
  maximum with that word again, which changes nothing — is the fold of max over the row; and its result at
  (r, q) is (y (r, q) - m) - log (0 + Σ k, exp (y (r, k) - m)): the log-softmax of row r, entry q.
-/
import proofs.«168742_j9234179686680_1_alg».proof.Proof.RefRead
import proofs.«168742_j9234179686680_1_alg».proof.Proof.LibRowReduce
import Idealize.ShloMosaic.Lib.ValueIdx

noncomputable section

namespace Cert.ReferenceIdeal.RefLogSoftmax

open Cert.ReferenceIdeal Cert.ReferenceIdeal.Gen Cert.ReferenceIdeal.ReadP Idealize.ShloMosaic
open Idealize.ShloMosaic.ValueIdx

variable (x0 : (⟨S50000x128, .f32⟩ : BufTy).Contents (Elt Ideal))
  (x1 x2 : (⟨S800000, .i32⟩ : BufTy).Contents (Elt Ideal))
  (x3 : (⟨S128x128, .f32⟩ : BufTy).Contents (Elt Ideal))
  (x4 : (⟨S128, .f32⟩ : BufTy).Contents (Elt Ideal))
  (x5 : (⟨S128x64, .f32⟩ : BufTy).Contents (Elt Ideal))
  (x6 : (⟨S64, .f32⟩ : BufTy).Contents (Elt Ideal))

/-- The scaled and shifted aggregate at an index. -/
theorem y_apply (i : S50000x64.Idx) :
    val_main_v66 x0 x1 x2 x3 x4 x5 x6 i
      = val_main_v58 x0 x1 x2 x3 x4 x5 i * val_main_v61 x2 (idx_main_v62 i) + val_main_v64 x6 (idx_main_v65 i) := by
  rw [val_main_v66_apply, val_main_v63_apply, val_main_v62_apply, val_main_v65_apply, Ideal.addf_def, Ideal.mulf_def]

/-- The row maximum laid along the row: the fold of max from the -infinity word over the row's entries. -/
theorem max_apply (r : Fin 50000) (q : Fin 64) :
    val_main_call5_v4 x0 x1 x2 x3 x4 x5 x6 (ix2 r q)
      = (Finset.univ : Finset (Fin 64)).fold max (Ideal.ofBits .f32 0xFF800000#32)
          (fun k => val_main_v66 x0 x1 x2 x3 x4 x5 x6 (ix2 r k)) := by
  rw [val_main_call5_v4_apply, val_main_call5_v3_apply, val_main_call5_v2_apply, val_main_call5_v1_apply,
    val_main_call5_cst_0_apply]
  have e : idx_main_call5_v3 (idx_main_call5_v4 (ix2 r q)) = ix1 r :=
    funext fun a => Fin.ext (by match a with | ⟨0, _⟩ => rfl)
  rw [e]
  unfold val_main_call5_v0
  have hred := Cert.RowReduce.hostReduce_max_row (M := 50000) (N := 64) (φ := .f32)
    (val_main_v66 (F := Ideal) x0 x1 x2 x3 x4 x5 x6) (val_main_call5_cst (F := Ideal))
    reducesTo_S50000x64_S50000_d1 (by decide) h_S_ r
  show max (Ideal.ofBits .f32 0xFF800000#32)
      (Host.reduce FloatOps.maximumf (val_main_v66 (F := Ideal) x0 x1 x2 x3 x4 x5 x6) (val_main_call5_cst (F := Ideal))
        reducesTo_S50000x64_S50000_d1 h_S_ (ix1 r)) = _
  rw [hred]
  exact Cert.RowReduce.max_fold_max_self _ _ _

/-- The reference's result at (r, q): the log-softmax of row r of the scaled and shifted aggregate, entry q. -/
theorem result_apply (r : Fin 50000) (q : Fin 64) :
    val_main_v67 x0 x1 x2 x3 x4 x5 x6 (ix2 r q)
      = Cert.RowReduce.logSoftmaxRow (Ideal.ofBits .f32 0xFF800000#32)
          (fun k => val_main_v66 x0 x1 x2 x3 x4 x5 x6 (ix2 r k)) q := by
  unfold Cert.RowReduce.logSoftmaxRow
  rw [val_main_v67_apply, val_main_call5_v5_apply, val_main_call5_v10_apply, val_main_call5_v9_apply,
    val_main_call5_v8_apply, val_main_call5_v7_apply, val_main_call5_cst_1_apply, max_apply]
  have hsum : (∑ k : Fin 64, val_main_call5_v6 x0 x1 x2 x3 x4 x5 x6
        (idx_main_call5_v7 (idx_main_call5_v8 (idx_main_call5_v10 (ix2 r q))) k))
      = ∑ k : Fin 64, Ideal.exp (val_main_v66 x0 x1 x2 x3 x4 x5 x6 (ix2 r k)
          - (Finset.univ : Finset (Fin 64)).fold max (Ideal.ofBits .f32 0xFF800000#32)
              (fun k' => val_main_v66 x0 x1 x2 x3 x4 x5 x6 (ix2 r k'))) :=
    Finset.sum_congr rfl fun k _ => by
      have e : idx_main_call5_v7 (idx_main_call5_v8 (idx_main_call5_v10 (ix2 r q))) k = ix2 r k :=
        funext fun a => Fin.ext (by match a with | ⟨0, _⟩ => rfl | ⟨1, _⟩ => rfl)
      rw [e, val_main_call5_v6_apply, val_main_call5_v5_apply, max_apply, Ideal.hostUnary_exp_def, Ideal.subf_def]
  rw [hsum]
  simp only [Ideal.subf_def, Ideal.hostUnary_log_def, Ideal.ofBits_def, Ideal.ofBits_zero_f32, zero_add]

end Cert.ReferenceIdeal.RefLogSoftmax

end
-- ==== Proof.LogSoftmax.lean ====
/-
  The fourth pallas_call: every row of the second aggregate multiplied by its in-degree factor, the bias row
  added, and the log-softmax of each row of 64 entries. A row's result depends on that row alone, so block t
  of the reference's log-softmax is the log-softmax of the block's rows; the ten row blocks tile the 50000 rows.
-/
import proofs.«168742_j9234179686680_1_alg».proof.Proof.Gen.KernelIdeal.Frame
import proofs.«168742_j9234179686680_1_alg».proof.Proof.RefRead
import proofs.«168742_j9234179686680_1_alg».proof.Proof.RefLogSoftmax
import proofs.«168742_j9234179686680_1_alg».proof.Proof.Payloads
import proofs.«168742_j9234179686680_1_alg».proof.Proof.BlockReads
import Idealize.ShloMosaic.Lib.Pipeline.Value
import Idealize.ShloMosaic.Lib.ValueIdx

set_option maxRecDepth 16384

noncomputable section

namespace Cert.KernelIdeal.LogSoftmax

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The two zero offsets, as the constant function. -/
theorem hz : (![0, 0] : Fin 2 → Nat) = fun _ => 0 := funext fun a => by fin_cases a <;> rfl

variable (V : (c : Dev nD) → (b : Ref sig .tc) → Buf (Elt Ideal) ((c : Thread nD τ).loc b))

variable (x0 : (⟨Cert.ReferenceIdeal.S50000x128, .f32⟩ : BufTy).Contents (Elt Ideal))
  (x1 x2 : (⟨Cert.ReferenceIdeal.S800000, .i32⟩ : BufTy).Contents (Elt Ideal))
  (x3 : (⟨Cert.ReferenceIdeal.S128x128, .f32⟩ : BufTy).Contents (Elt Ideal))
  (x4 : (⟨Cert.ReferenceIdeal.S128, .f32⟩ : BufTy).Contents (Elt Ideal))
  (x5 : (⟨Cert.ReferenceIdeal.S128x64, .f32⟩ : BufTy).Contents (Elt Ideal))
  (x6 : (⟨Cert.ReferenceIdeal.S64, .f32⟩ : BufTy).Contents (Elt Ideal))

/-- What grid point t writes back is block t of the reference's log-softmax. -/
theorem flushed_eq (c : Dev nD) (t : Fin cfg3.N)
    (hA : V c main_v39 = Cert.ReferenceIdeal.ReadP.val_main_v58 x0 x1 x2 x3 x4 x5) (hD : V c main_v14 = Cert.ReferenceIdeal.ReadP.val_main_v61 x2)
    (hB : V c main_v16 = Cert.ReferenceIdeal.ReadP.val_main_v64 x6) :
    (dat3 V c).flushed 3 t
      = ((cfg3.win 3).blk t).view.read (Elt Ideal) (Cert.ReferenceIdeal.ReadP.val_main_v67 x0 x1 x2 x3 x4 x5 x6) := by
  show (cfg3.win 3).cut (grid3.coords t) ((dat3 V c).after 3 t) = _
  rw [after3_3]
  have hb0 : iblk3 V c 0 t = ((cfg3.win 0).blk t).view.read (Elt Ideal) (Cert.ReferenceIdeal.ReadP.val_main_v58 x0 x1 x2 x3 x4 x5) :=
    congrArg (((cfg3.win 0).blk t).view.read (Elt Ideal)) hA
  have hb1 : iblk3 V c 1 t = ((cfg3.win 1).blk t).view.read (Elt Ideal) (Cert.ReferenceIdeal.ReadP.val_main_v61 x2) :=
    congrArg (((cfg3.win 1).blk t).view.read (Elt Ideal)) hD
  have hb2 : iblk3 V c 2 t = ((cfg3.win 2).blk t).view.read (Elt Ideal) (Cert.ReferenceIdeal.ReadP.val_main_v64 x6) :=
    congrArg (((cfg3.win 2).blk t).view.read (Elt Ideal)) hB
  rw [hb0, hb1, hb2]
  unfold out3_3
  rw [View.canon_unit_zero hz]
  simp only [View.ld_unit_zero (S := S5000x64) hz, View.ld_unit_zero (S := S5000x1) hz,
    View.ld_unit_zero (S := S1x64) hz]
  funext j
  have hj0 : (j 0).val < 5000 := (j 0).isLt
  have hj1 : (j 1).val < 64 := (j 1).isLt
  have ht : t.val < 10 := lt_of_lt_of_eq t.isLt N_3
  refine (congrFun (Cert.KernelIdeal.Payloads.logsoftmax_eq _ _ _) _).trans ?_
  refine Eq.trans ?_ (Cert.KernelIdeal.BlockReads.Call3.read3 (Cert.ReferenceIdeal.ReadP.val_main_v67 x0 x1 x2 x3 x4 x5 x6) t j (ix2 (⟨t.val * 5000 + (j 0).val, by omega⟩ : Fin 50000) (⟨(j 1).val, hj1⟩ : Fin 64)) rfl rfl).symm
  rw [Cert.ReferenceIdeal.RefLogSoftmax.result_apply]
  refine congrArg₂ (fun (f : Fin 64 → EReal) (q : Fin 64) =>
      Cert.RowReduce.logSoftmaxRow (Ideal.ofBits .f32 0xFF800000#32) f q) (funext fun k => ?_) rfl
  rw [Cert.ReferenceIdeal.RefLogSoftmax.y_apply]
  exact congrArg₂ (fun (u v : Ideal .f32) => u + v)
    (congrArg₂ (fun (u v : Ideal .f32) => u * v)
      (Cert.KernelIdeal.BlockReads.Call3.read0 (Cert.ReferenceIdeal.ReadP.val_main_v58 x0 x1 x2 x3 x4 x5) t _ _ rfl rfl)
      (Cert.KernelIdeal.BlockReads.Call3.read1 (Cert.ReferenceIdeal.ReadP.val_main_v61 x2) t _ (Cert.ReferenceIdeal.ReadP.idx_main_v62 _) rfl rfl))
    (Cert.KernelIdeal.BlockReads.Call3.read2 (Cert.ReferenceIdeal.ReadP.val_main_v64 x6) t _ (Cert.ReferenceIdeal.ReadP.idx_main_v65 _) rfl rfl)

/-- The array this call leaves is the reference's result, when the call finds the reference's second aggregate,
    the column of in-degree factors and the bias as one row. -/
theorem arr (c : Dev nD)
    (hA : V c main_v39 = Cert.ReferenceIdeal.ReadP.val_main_v58 x0 x1 x2 x3 x4 x5) (hD : V c main_v14 = Cert.ReferenceIdeal.ReadP.val_main_v61 x2)
    (hB : V c main_v16 = Cert.ReferenceIdeal.ReadP.val_main_v64 x6) :
    (dat3 V c).arrAt 3 cfg3.N = Cert.ReferenceIdeal.ReadP.val_main_v67 x0 x1 x2 x3 x4 x5 x6 :=
  (dat3 V c).arrAt_eq_of_cover 3 (Cert.ReferenceIdeal.ReadP.val_main_v67 x0 x1 x2 x3 x4 x5 x6)
    (fun t _ => flushed_eq V x0 x1 x2 x3 x4 x5 x6 c t hA hD hB) Cert.KernelIdeal.BlockReads.Call3.cover

end Cert.KernelIdeal.LogSoftmax

end
-- ==== Proof.Stages.lean ====
/-
  The buffers' contents along the kernel program's run, named as the reference's stages. In front of the first
  call the host computes the two degree factors (as columns) and lays the biases out as rows: the same values the
  reference computes, a cast to one column or one row being the host's broadcast. Each call then finds the
  reference's stages in its operand arrays and leaves the next stage (the four region modules); between the calls
  the host's gather and scatter-add are the reference's own operations on those stages. So the last call leaves the
  reference's result in the result buffer.
-/
import proofs.«168742_j9234179686680_1_alg».proof.Proof.Gen.KernelIdeal.Frame
import proofs.«168742_j9234179686680_1_alg».proof.Proof.RefRead
import proofs.«168742_j9234179686680_1_alg».proof.Proof.LibKeepdims
import proofs.«168742_j9234179686680_1_alg».proof.Proof.DegreeScale
import proofs.«168742_j9234179686680_1_alg».proof.Proof.ConvRelu
import proofs.«168742_j9234179686680_1_alg».proof.Proof.ScaleProject
import proofs.«168742_j9234179686680_1_alg».proof.Proof.LogSoftmax
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo
open Idealize.ShloMosaic.Pipeline (Dat Cfg Window)

variable (m : (ℓ : Loc nD τ sig) → Buf (Elt Ideal) ℓ) (ρ : Dev nD → PrngReg)

/-- The seven argument arrays as launched. -/
abbrev a0 (c : Dev nD) : (⟨Cert.ReferenceIdeal.S50000x128, .f32⟩ : BufTy).Contents (Elt Ideal) := m ((c : Thread nD τ).loc main_arg0)
abbrev a1 (c : Dev nD) : (⟨Cert.ReferenceIdeal.S800000, .i32⟩ : BufTy).Contents (Elt Ideal) := m ((c : Thread nD τ).loc main_arg1)
abbrev a2 (c : Dev nD) : (⟨Cert.ReferenceIdeal.S800000, .i32⟩ : BufTy).Contents (Elt Ideal) := m ((c : Thread nD τ).loc main_arg2)
abbrev a3 (c : Dev nD) : (⟨Cert.ReferenceIdeal.S128x128, .f32⟩ : BufTy).Contents (Elt Ideal) := m ((c : Thread nD τ).loc main_arg3)
abbrev a4 (c : Dev nD) : (⟨Cert.ReferenceIdeal.S128, .f32⟩ : BufTy).Contents (Elt Ideal) := m ((c : Thread nD τ).loc main_arg4)
abbrev a5 (c : Dev nD) : (⟨Cert.ReferenceIdeal.S128x64, .f32⟩ : BufTy).Contents (Elt Ideal) := m ((c : Thread nD τ).loc main_arg5)
abbrev a6 (c : Dev nD) : (⟨Cert.ReferenceIdeal.S64, .f32⟩ : BufTy).Contents (Elt Ideal) := m ((c : Thread nD τ).loc main_arg6)

section Clamps
variable {F : FTy → Type} [FloatOps F]

/-- The host's clamp of the out-degrees at 1 (a called function: its operations name their buffers through typed
    references), written over the buffers themselves. -/
abbrev clampOut : List (HloOp τ sig (Elt F)) :=
  [ unary main_cst_1 main_call0_v0 (id : (⟨S_, .f32⟩ : BufTy).Contents (Elt F) → (⟨S_, .f32⟩ : BufTy).Contents (Elt F)),
    unary main_call0_v0 main_call0_v1 (broadcastInDim S50000 ![] bcast_S_S50000 : (⟨S_, .f32⟩ : BufTy).Contents (Elt F) → (⟨S50000, .f32⟩ : BufTy).Contents (Elt F)),
    binary main_call0_v1 main_v3 main_v4 ((maximumf) : (⟨S50000, .f32⟩ : BufTy).Contents (Elt F) → (⟨S50000, .f32⟩ : BufTy).Contents (Elt F) → (⟨S50000, .f32⟩ : BufTy).Contents (Elt F)) ]

/-- The same for the in-degrees. -/
abbrev clampIn : List (HloOp τ sig (Elt F)) :=
  [ unary main_cst_3 main_call1_v0 (id : (⟨S_, .f32⟩ : BufTy).Contents (Elt F) → (⟨S_, .f32⟩ : BufTy).Contents (Elt F)),
    unary main_call1_v0 main_call1_v1 (broadcastInDim S50000 ![] bcast_S_S50000 : (⟨S_, .f32⟩ : BufTy).Contents (Elt F) → (⟨S50000, .f32⟩ : BufTy).Contents (Elt F)),
    binary main_call1_v1 main_v7 main_v8 ((maximumf) : (⟨S50000, .f32⟩ : BufTy).Contents (Elt F) → (⟨S50000, .f32⟩ : BufTy).Contents (Elt F) → (⟨S50000, .f32⟩ : BufTy).Contents (Elt F)) ]

/-- A typed reference's transport along its type equation is the identity: entry by entry the two spellings are one. -/
theorem clampOut_eq : (hostOps0_1 : List (HloOp τ sig (Elt F))) = clampOut := by
  delta hostOps0_1 clampOut
  iterate 3 (refine congrArg₂ List.cons rfl ?_)
  rfl
theorem clampIn_eq : (hostOps0_3 : List (HloOp τ sig (Elt F))) = clampIn := by
  delta hostOps0_3 clampIn
  iterate 3 (refine congrArg₂ List.cons rfl ?_)
  rfl

end Clamps

/-- Reads a buffer through the five host stretches in front of the first call. -/
macro "entry_results" : tactic => `(tactic| (
  show StableHlo.after hostOps0_4 (StableHlo.after hostOps0_3 (StableHlo.after hostOps0_2
    (StableHlo.after hostOps0_1 (StableHlo.after hostOps0 (W0 _ _ _))))) (Proc.devRef .tc _) = _
  rw [clampOut_eq, clampIn_eq]
  simp only [hostOps0, clampOut, hostOps0_2, clampIn, hostOps0_4]
  after_results))

/-! ## What the first call finds -/

theorem e5_arg0 (c : Dev nD) : V5 m ρ c main_arg0 = a0 m c := by
  entry_results
theorem e5_arg1 (c : Dev nD) : V5 m ρ c main_arg1 = a1 m c := by
  entry_results
theorem e5_arg2 (c : Dev nD) : V5 m ρ c main_arg2 = a2 m c := by
  entry_results
theorem e5_arg3 (c : Dev nD) : V5 m ρ c main_arg3 = a3 m c := by
  entry_results
theorem e5_arg5 (c : Dev nD) : V5 m ρ c main_arg5 = a5 m c := by
  entry_results

/-- The out-degree factors as one column: the reference's column. -/
theorem e5_v11 (c : Dev nD) : V5 m ρ c main_v11 = Cert.ReferenceIdeal.ReadP.val_main_v11 (a1 m c) := by
  entry_results
  refine Eq.trans ?_ (Cert.Keepdims.cast_col_eq_broadcast (n := 50000) (Cert.ReferenceIdeal.ReadP.val_main_v10 (a1 m c)) shapeCasts_S50000_S50000x1 _)
  rfl

/-- The in-degree factors as one column: the reference's column. -/
theorem e5_v14 (c : Dev nD) : V5 m ρ c main_v14 = Cert.ReferenceIdeal.ReadP.val_main_v27 (a2 m c) := by
  entry_results
  refine Eq.trans ?_ (Cert.Keepdims.cast_col_eq_broadcast (n := 50000) (Cert.ReferenceIdeal.ReadP.val_main_v26 (a2 m c)) shapeCasts_S50000_S50000x1 _)
  rfl

/-- The first bias as one row: the reference's row. -/
theorem e5_v15 (c : Dev nD) : V5 m ρ c main_v15 = Cert.ReferenceIdeal.ReadP.val_main_v30 (a4 m c) := by
  entry_results
  refine Eq.trans ?_ (Cert.Keepdims.cast_row_eq_broadcast (n := 128) (a4 m c) shapeCasts_S128_S1x128 _)
  rfl

/-- The second bias as one row: the reference's row. -/
theorem e5_v16 (c : Dev nD) : V5 m ρ c main_v16 = Cert.ReferenceIdeal.ReadP.val_main_v64 (a6 m c) := by
  entry_results
  refine Eq.trans ?_ (Cert.Keepdims.cast_row_eq_broadcast (n := 64) (a6 m c) shapeCasts_S64_S1x64 _)
  rfl

/-! ## After the first call: the scaled features -/

theorem e6_v17 (c : Dev nD) : V6 m ρ c main_v17 = Cert.ReferenceIdeal.ReadP.val_main_v13 (a0 m c) (a1 m c) :=
  (W6_arr m ρ c 2).trans (Cert.KernelIdeal.DegreeScale.arr (V5 m ρ) (a0 m c) (a1 m c) c (e5_arg0 m ρ c) (e5_v11 m ρ c))

theorem e6_arg1 (c : Dev nD) : V6 m ρ c main_arg1 = a1 m c := (W6_of_ne m ρ c main_arg1 (by decide)).trans (e5_arg1 m ρ c)
theorem e6_arg2 (c : Dev nD) : V6 m ρ c main_arg2 = a2 m c := (W6_of_ne m ρ c main_arg2 (by decide)).trans (e5_arg2 m ρ c)
theorem e6_arg3 (c : Dev nD) : V6 m ρ c main_arg3 = a3 m c := (W6_of_ne m ρ c main_arg3 (by decide)).trans (e5_arg3 m ρ c)
theorem e6_arg5 (c : Dev nD) : V6 m ρ c main_arg5 = a5 m c := (W6_of_ne m ρ c main_arg5 (by decide)).trans (e5_arg5 m ρ c)
theorem e6_v14 (c : Dev nD) : V6 m ρ c main_v14 = Cert.ReferenceIdeal.ReadP.val_main_v27 (a2 m c) := (W6_of_ne m ρ c main_v14 (by decide)).trans (e5_v14 m ρ c)
theorem e6_v15 (c : Dev nD) : V6 m ρ c main_v15 = Cert.ReferenceIdeal.ReadP.val_main_v30 (a4 m c) := (W6_of_ne m ρ c main_v15 (by decide)).trans (e5_v15 m ρ c)
theorem e6_v16 (c : Dev nD) : V6 m ρ c main_v16 = Cert.ReferenceIdeal.ReadP.val_main_v64 (a6 m c) := (W6_of_ne m ρ c main_v16 (by decide)).trans (e5_v16 m ρ c)
/-- The column of out-degree factors is an operand of the first call, read and left as found. -/
theorem e6_v11 (c : Dev nD) : V6 m ρ c main_v11 = Cert.ReferenceIdeal.ReadP.val_main_v11 (a1 m c) :=
  ((W6_arr m ρ c 1).trans (((dat0 (V5 m ρ) c).arrAt_in 1 rfl _).trans (A_eq0 (V5 m ρ) c 1))).trans (e5_v11 m ρ c)

/-! ## What the second call finds: the first aggregation -/

/-- Reads a buffer through the host stretch between the first and the second call. -/
macro "between01_results" : tactic => `(tactic| (
  show StableHlo.after hostOps1 (W6 _ _ _) (Proc.devRef .tc _) = _
  simp only [hostOps1]
  after_results))

theorem e7_v27 (c : Dev nD) : V7 m ρ c main_v27 = Cert.ReferenceIdeal.ReadP.val_main_v23 (a0 m c) (a1 m c) (a2 m c) := by
  between01_results
  rw [show W6 m ρ c (Proc.devRef .tc main_v17) = Cert.ReferenceIdeal.ReadP.val_main_v13 (a0 m c) (a1 m c) from e6_v17 m ρ c,
    show W6 m ρ c (Proc.devRef .tc main_arg1) = a1 m c from e6_arg1 m ρ c,
    show W6 m ρ c (Proc.devRef .tc main_arg2) = a2 m c from e6_arg2 m ρ c]
  rfl
theorem e7_arg1 (c : Dev nD) : V7 m ρ c main_arg1 = a1 m c := by
  between01_results; exact e6_arg1 m ρ c
theorem e7_arg2 (c : Dev nD) : V7 m ρ c main_arg2 = a2 m c := by
  between01_results; exact e6_arg2 m ρ c
theorem e7_arg3 (c : Dev nD) : V7 m ρ c main_arg3 = a3 m c := by
  between01_results; exact e6_arg3 m ρ c
theorem e7_arg5 (c : Dev nD) : V7 m ρ c main_arg5 = a5 m c := by
  between01_results; exact e6_arg5 m ρ c
theorem e7_v11 (c : Dev nD) : V7 m ρ c main_v11 = Cert.ReferenceIdeal.ReadP.val_main_v11 (a1 m c) := by
  between01_results; exact e6_v11 m ρ c
theorem e7_v14 (c : Dev nD) : V7 m ρ c main_v14 = Cert.ReferenceIdeal.ReadP.val_main_v27 (a2 m c) := by
  between01_results; exact e6_v14 m ρ c
theorem e7_v15 (c : Dev nD) : V7 m ρ c main_v15 = Cert.ReferenceIdeal.ReadP.val_main_v30 (a4 m c) := by
  between01_results; exact e6_v15 m ρ c
theorem e7_v16 (c : Dev nD) : V7 m ρ c main_v16 = Cert.ReferenceIdeal.ReadP.val_main_v64 (a6 m c) := by
  between01_results; exact e6_v16 m ρ c

/-! ## After the second call: the rectified first layer -/

theorem e8_v28 (c : Dev nD) : V8 m ρ c main_v28 = Cert.ReferenceIdeal.ReadP.val_main_v33 (a0 m c) (a1 m c) (a2 m c) (a3 m c) (a4 m c) :=
  (W8_arr m ρ c 4).trans (Cert.KernelIdeal.ConvRelu.arr (V7 m ρ) (a0 m c) (a1 m c) (a2 m c) (a3 m c) (a4 m c) c
    (e7_v27 m ρ c) (e7_arg3 m ρ c) (e7_v15 m ρ c) (e7_v14 m ρ c))

theorem e8_arg1 (c : Dev nD) : V8 m ρ c main_arg1 = a1 m c := (W8_of_ne m ρ c main_arg1 (by decide)).trans (e7_arg1 m ρ c)
theorem e8_arg2 (c : Dev nD) : V8 m ρ c main_arg2 = a2 m c := (W8_of_ne m ρ c main_arg2 (by decide)).trans (e7_arg2 m ρ c)
theorem e8_arg5 (c : Dev nD) : V8 m ρ c main_arg5 = a5 m c := (W8_of_ne m ρ c main_arg5 (by decide)).trans (e7_arg5 m ρ c)
theorem e8_v16 (c : Dev nD) : V8 m ρ c main_v16 = Cert.ReferenceIdeal.ReadP.val_main_v64 (a6 m c) := (W8_of_ne m ρ c main_v16 (by decide)).trans (e7_v16 m ρ c)
/-- The second layer takes the out-degree factors again: the reference computes them a second time, the same term. -/
theorem e8_v11 (c : Dev nD) : V8 m ρ c main_v11 = Cert.ReferenceIdeal.ReadP.val_main_v45 (a1 m c) :=
  ((W8_of_ne m ρ c main_v11 (by decide)).trans (e7_v11 m ρ c)).trans rfl
/-- The column of in-degree factors is an operand of the second call, read and left as found; the reference's
    second layer computes it again, the same term. -/
theorem e8_v14 (c : Dev nD) : V8 m ρ c main_v14 = Cert.ReferenceIdeal.ReadP.val_main_v61 (a2 m c) :=
  (((W8_arr m ρ c 3).trans (((dat1 (V7 m ρ) c).arrAt_in 3 rfl _).trans (A_eq1 (V7 m ρ) c 3))).trans (e7_v14 m ρ c)).trans rfl

/-! ## After the third call: the projected features -/

theorem e9_v29 (c : Dev nD) : V9 m ρ c main_v29
    = Cert.ReferenceIdeal.ReadP.val_main_v48 (a0 m c) (a1 m c) (a2 m c) (a3 m c) (a4 m c) (a5 m c) :=
  (W9_arr m ρ c 3).trans (Cert.KernelIdeal.ScaleProject.arr (V8 m ρ) (a0 m c) (a1 m c) (a2 m c) (a3 m c) (a4 m c) (a5 m c) c
    (e8_v28 m ρ c) (e8_v11 m ρ c) (e8_arg5 m ρ c))

theorem e9_arg1 (c : Dev nD) : V9 m ρ c main_arg1 = a1 m c := (W9_of_ne m ρ c main_arg1 (by decide)).trans (e8_arg1 m ρ c)
theorem e9_arg2 (c : Dev nD) : V9 m ρ c main_arg2 = a2 m c := (W9_of_ne m ρ c main_arg2 (by decide)).trans (e8_arg2 m ρ c)
theorem e9_v14 (c : Dev nD) : V9 m ρ c main_v14 = Cert.ReferenceIdeal.ReadP.val_main_v61 (a2 m c) := (W9_of_ne m ρ c main_v14 (by decide)).trans (e8_v14 m ρ c)
theorem e9_v16 (c : Dev nD) : V9 m ρ c main_v16 = Cert.ReferenceIdeal.ReadP.val_main_v64 (a6 m c) := (W9_of_ne m ρ c main_v16 (by decide)).trans (e8_v16 m ρ c)

/-! ## What the fourth call finds: the second aggregation -/

/-- Reads a buffer through the host stretch between the third and the fourth call. -/
macro "between23_results" : tactic => `(tactic| (
  show StableHlo.after hostOps3 (W9 _ _ _) (Proc.devRef .tc _) = _
  simp only [hostOps3]
  after_results))

theorem e10_v39 (c : Dev nD) : V10 m ρ c main_v39
    = Cert.ReferenceIdeal.ReadP.val_main_v58 (a0 m c) (a1 m c) (a2 m c) (a3 m c) (a4 m c) (a5 m c) := by
  between23_results
  rw [show W9 m ρ c (Proc.devRef .tc main_v29) = Cert.ReferenceIdeal.ReadP.val_main_v48 (a0 m c) (a1 m c) (a2 m c) (a3 m c) (a4 m c) (a5 m c) from e9_v29 m ρ c,
    show W9 m ρ c (Proc.devRef .tc main_arg1) = a1 m c from e9_arg1 m ρ c,
    show W9 m ρ c (Proc.devRef .tc main_arg2) = a2 m c from e9_arg2 m ρ c]
  rfl
theorem e10_v14 (c : Dev nD) : V10 m ρ c main_v14 = Cert.ReferenceIdeal.ReadP.val_main_v61 (a2 m c) := by
  between23_results; exact e9_v14 m ρ c
theorem e10_v16 (c : Dev nD) : V10 m ρ c main_v16 = Cert.ReferenceIdeal.ReadP.val_main_v64 (a6 m c) := by
  between23_results; exact e9_v16 m ρ c

/-! ## After the fourth call: the result -/

/-- The result buffer at the end of the run holds the reference's result of the launched arguments. -/
theorem result (c : Dev nD) : W11 m ρ c (Proc.devRef .tc main_v40)
    = Cert.ReferenceIdeal.ReadP.val_main_v67 (a0 m c) (a1 m c) (a2 m c) (a3 m c) (a4 m c) (a5 m c) (a6 m c) :=
  (W11_arr m ρ c 3).trans (Cert.KernelIdeal.LogSoftmax.arr (V10 m ρ) (a0 m c) (a1 m c) (a2 m c) (a3 m c) (a4 m c) (a5 m c) (a6 m c) c
    (e10_v39 m ρ c) (e10_v14 m ρ c) (e10_v16 m ρ c))

end Cert.KernelIdeal.Stages

end
-- ==== Proof.lean ====
/-
  A two-layer graph convolution with a final log-softmax: the Pallas program against its jnp reference, over the
  extended reals. Both programs compute the degree factors, gather the source rows and scatter-add them at the
  destination rows with the same host operations; the Pallas program does the dense per-row work in four calls
  over ten row blocks — scale by the out-degree factor; product with the first weights, in-degree factor, bias,
  rectifier; out-degree factor, product with the second weights; in-degree factor, bias, log-softmax of each row —
  where the reference uses whole-array host operations. At the extended reals a change of float format is the
  identity, a block product into a zero accumulator is the host's product, a lane maximum or sum is the host's, and
  every row's result depends on that row alone, so each call leaves the reference's own intermediate stage
  (the four region modules) and the result buffers agree (Proof/Stages.lean). The law used is 0 + x = x and
  max b (max-fold from b) = the fold: nothing needs the inputs finite.
  The three frames are the generated ones (the reference's from its run); the idealization rewrote no operation.
-/
import proofs.«168742_j9234179686680_1_alg».proof.Defs
import proofs.«168742_j9234179686680_1_alg».proof.Proof.Gen.Kernel
import proofs.«168742_j9234179686680_1_alg».proof.Proof.Gen.Kernel.Skeleton
import proofs.«168742_j9234179686680_1_alg».proof.Proof.Gen.Kernel.Launch
import proofs.«168742_j9234179686680_1_alg».proof.Proof.Gen.Kernel.Points
import proofs.«168742_j9234179686680_1_alg».proof.Proof.Gen.Kernel.Frame
import proofs.«168742_j9234179686680_1_alg».proof.Proof.Gen.KernelIdeal
import proofs.«168742_j9234179686680_1_alg».proof.Proof.Gen.KernelIdeal.Skeleton
import proofs.«168742_j9234179686680_1_alg».proof.Proof.Gen.KernelIdeal.Launch
import proofs.«168742_j9234179686680_1_alg».proof.Proof.Gen.KernelIdeal.Points
import proofs.«168742_j9234179686680_1_alg».proof.Proof.Gen.KernelIdeal.Frame
import proofs.«168742_j9234179686680_1_alg».proof.Proof.Gen.ReferenceIdeal
import proofs.«168742_j9234179686680_1_alg».proof.Proof.Gen.Pre_finite_inputs
import proofs.«168742_j9234179686680_1_alg».proof.Proof.RefRun
import proofs.«168742_j9234179686680_1_alg».proof.Proof.RefRead
import proofs.«168742_j9234179686680_1_alg».proof.Proof.RunOut
import proofs.«168742_j9234179686680_1_alg».proof.Proof.Stages
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both result buffers end at the reference's last stage of the launched arguments. -/
theorem algebraic : Cert.algebraic_KernelIdeal_ReferenceIdeal := by
  intro m ρ m' ρ' _ hagree
  refine ⟨fun c => Cert.ReferenceIdeal.ReadP.val_main_v67 (Cert.KernelIdeal.Stages.a0 m c) (Cert.KernelIdeal.Stages.a1 m c)
      (Cert.KernelIdeal.Stages.a2 m c) (Cert.KernelIdeal.Stages.a3 m c) (Cert.KernelIdeal.Stages.a4 m c)
      (Cert.KernelIdeal.Stages.a5 m c) (Cert.KernelIdeal.Stages.a6 m c), ?_, ?_⟩
  · exact (θ_run Cert.KernelIdeal.defs _ _).mono
      (fun r h c => ⟨(h c).1.trans (Cert.KernelIdeal.Stages.result m ρ c), (h c).2⟩)
      (Cert.KernelIdeal.GenRun.run_out (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6⟩ := hagree c
    rw [Cert.ReferenceIdeal.ReadP.val_main_v67_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
